-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S64x316 : Shape := ⟨2, ![64, 316]⟩
abbrev S64 : Shape := ⟨1, ![64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S64x316 : S_.BroadcastsInDim S64x316 (![] : Fin 0 → Fin S64x316.rank)
  reducesTo_S64x316_S_d0_1 : S64x316.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x8192x64 .f32) (main_arg1 : FVec F S64x316 .f32) (main_arg2 : FVec F S64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S64x316 .f32 := Host.absf main_arg1
  let main_cst_0 : FVec F S_ .f32 := constant S_ .f32 0x7F800000#32
  let main_v5 : FVec F S64x316 .f32 := broadcastInDim S64x316 ![] bcast_S_S64x316 main_cst_0
  let main_v6 : IVec S64x316 1 := cmpf .olt main_v4 main_v5
  let main_c_1 : IVec S_ 1 := constantI S_ 1 1#1
  let main_v7 : IVec S_ 1 := (fun x v => Host.reduce IntOp.andi x v reducesTo_S64x316_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x8192x64 : Shape := ⟨3, ![16, 8192, 64]⟩
abbrev S64x316 : Shape := ⟨2, ![64, 316]⟩
abbrev S64 : Shape := ⟨1, ![64]⟩
abbrev S64x1 : Shape := ⟨2, ![64, 1]⟩
abbrev S1x64 : Shape := ⟨2, ![1, 64]⟩
abbrev S64x315 : Shape := ⟨2, ![64, 315]⟩
abbrev S64x63x5 : Shape := ⟨3, ![64, 63, 5]⟩
abbrev S5x63x64 : Shape := ⟨3, ![5, 63, 64]⟩
abbrev S1x8192x64 : Shape := ⟨3, ![1, 8192, 64]⟩
abbrev S8192x64 : Shape := ⟨2, ![8192, 64]⟩
abbrev S2x64 : Shape := ⟨2, ![2, 64]⟩
abbrev S8196x64 : Shape := ⟨2, ![8196, 64]⟩
abbrev S8192x1 : Shape := ⟨2, ![8192, 1]⟩
abbrev S8192x63 : Shape := ⟨2, ![8192, 63]⟩
abbrev S1x63x64 : Shape := ⟨3, ![1, 63, 64]⟩
abbrev S63x64 : Shape := ⟨2, ![63, 64]⟩
abbrev S8192 : Shape := ⟨1, ![8192]⟩

abbrev nBuf : Space → Nat
  | .hbm => 12
  | .vmem => 7
  | .smem => 0
  | _ => 0

abbrev bufTy : (tb : Table) → Fin (tcTables nBuf tb) → BufTy
  | .hbm, ⟨0, _⟩ => ⟨S16x8192x64, .f32⟩
  | .hbm, ⟨1, _⟩ => ⟨S64x316, .f32⟩
  | .hbm, ⟨2, _⟩ => ⟨S64, .f32⟩
  | .hbm, ⟨3, _⟩ => ⟨S64x1, .f32⟩
  | .hbm, ⟨4, _⟩ => ⟨S64, .f32⟩
  | .hbm, ⟨5, _⟩ => ⟨S1x64, .f32⟩
  | .hbm, ⟨6, _⟩ => ⟨S64x315, .f32⟩
  | .hbm, ⟨7, _⟩ => ⟨S64x63x5, .f32⟩
  | .hbm, ⟨8, _⟩ => ⟨S5x63x64, .f32⟩
  | .hbm, ⟨9, _⟩ => ⟨S5x63x64, .bf16⟩
  | .hbm, ⟨10, _⟩ => ⟨S1x64, .f32⟩
  | .hbm, ⟨11, _⟩ => ⟨S16x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x64, .f32⟩
  | .local _ .vmem, ⟨3, _⟩ => ⟨S5x63x64, .bf16⟩
  | .local _ .vmem, ⟨4, _⟩ => ⟨S1x64, .f32⟩
  | .local _ .vmem, ⟨5, _⟩ => ⟨S1x8192x64, .f32⟩
  | .local _ .vmem, ⟨6, _⟩ => ⟨S1x8192x64, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x63x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S64x316_S64x1_0_0 : S64x316.Slices ![0, 0] S64x1
  shapeCasts_S64x1_S64 : S64x1.ShapeCasts S64
  shapeCasts_S64_S1x64 : S64.ShapeCasts S1x64
  slices_S64x316_S64x315_0_1 : S64x316.Slices ![0, 1] S64x315
  shapeCasts_S64x315_S64x63x5 : S64x315.ShapeCasts S64x63x5
  transposes_S64x63x5_S5x63x64_2_1_0 : S64x63x5.Transposes [2, 1, 0] S5x63x64
  bitsLt_bf16_f32 : FTy.bits .bf16 < FTy.bits .f32
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  concatenates_S2x64_S8192x64_S2x64_S8196x64_d0 : Shape.Concatenates [S2x64, S8192x64, S2x64] S8196x64 0
  iota_S8196x64_d1_w32 : S8196x64.Iotas .tc 32 [1]
  slices_S8196x64_o0_0_S8192x64 : S8196x64.Slices ![0, 0] S8192x64
  slices_S8192x64_o0_0_S8192x1 : S8192x64.Slices ![0, 0] S8192x1
  slices_S8192x64_o0_1_S8192x63 : S8192x64.Slices ![0, 1] S8192x63
  inb_S5x63x64_S1x63x64_0_0_0 : ∀ a, (![0, 0, 0] : Fin 3 → Nat) a + S1x63x64.size a ≤ S5x63x64.size a
  h_S1x63x64 : 0 < S1x63x64.numel
  shapeCasts_S1x63x64_S63x64 : S1x63x64.ShapeCasts S63x64
  slices_S8196x64_o1_0_S8192x64 : S8196x64.Slices ![1, 0] S8192x64
  inb_S5x63x64_S1x63x64_1_0_0 : ∀ a, (![1, 0, 0] : Fin 3 → Nat) a + S1x63x64.size a ≤ S5x63x64.size a
  slices_S8196x64_o2_0_S8192x64 : S8196x64.Slices ![2, 0] S8192x64
  inb_S5x63x64_S1x63x64_2_0_0 : ∀ a, (![2, 0, 0] : Fin 3 → Nat) a + S1x63x64.size a ≤ S5x63x64.size a
  slices_S8196x64_o3_0_S8192x64 : S8196x64.Slices ![3, 0] S8192x64
  inb_S5x63x64_S1x63x64_3_0_0 : ∀ a, (![3, 0, 0] : Fin 3 → Nat) a + S1x63x64.size a ≤ S5x63x64.size a
  slices_S8196x64_o4_0_S8192x64 : S8196x64.Slices ![4, 0] S8192x64
  inb_S5x63x64_S1x63x64_4_0_0 : ∀ a, (![4, 0, 0] : Fin 3 → Nat) a + S1x63x64.size a ≤ S5x63x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8192x1_S8192x64 : S8192x1.Broadcasts S8192x64
  broadcasts_S1x64_S8192x64 : S1x64.Broadcasts S8192x64
  reduces_S8192x63_S8192 : S8192x63.Reduces [1] S8192
  shapeCasts_S8192_S8192x1 : S8192.ShapeCasts S8192x1
  concatenates_S8192x1_S8192x63_S8192x64_d1 : Shape.Concatenates [S8192x1, S8192x63] S8192x64 1
  shapeCasts_S8192x64_S1x8192x64 : S8192x64.ShapeCasts S1x8192x64
  dot_S8192x63_S63x64_S8192x64_1_0_0_1_n_n_wf : DotDims.WF S8192x63 S63x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S16x8192x64.size a
  hwx0_0 : ∀ i : grid0.Coords, EltTy.bits .f32 = 32 ∨ (Rect.block (s := S16x8192x64) S1x8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x63x64.size a ≤ S5x63x64.size a
  hwx0_2 : ∀ i : grid0.Coords, EltTy.bits .bf16 = 32 ∨ (Rect.block (s := S5x63x64) S5x63x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x64.size a ≤ S16x8192x64.size a
  hwx0_4 : ∀ i : grid0.Coords, EltTy.bits .f32 = 32 ∨ (Rect.block (s := S16x8192x64) S1x8192x64.size (cc0_transform_4 i) (hinb0_4 i)).WholeWords (EltTy.packing .f32)

variable [Facts₀]

def dot_S8192x63_S63x64_S8192x64_1_0_0_1_n_n : DotDims S8192x63 S63x64 S8192x64 where
  lhsContracting := [1]
  rhsContracting := [0]
  lhsNonContracting := [0]
  rhsNonContracting := [1]
  lhsBatch := []
  rhsBatch := []
  wf := dot_S8192x63_S63x64_S8192x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5x63x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S64x316 : Shape := ⟨2, ![64, 316]⟩
abbrev S64 : Shape := ⟨1, ![64]⟩
abbrev S_ : Shape := ⟨0, ![]⟩
abbrev S16x8196x64 : Shape := ⟨3, ![16, 8196, 64]⟩
abbrev S16x8196x1 : Shape := ⟨3, ![16, 8196, 1]⟩
abbrev S16x8196 : Shape := ⟨2, ![16, 8196]⟩
abbrev S1 : Shape := ⟨1, ![1]⟩
abbrev S8192 : Shape := ⟨1, ![8192]⟩
abbrev S8192x1 : Shape := ⟨2, ![8192, 1]⟩
abbrev S5 : Shape := ⟨1, ![5]⟩
abbrev S1x5 : Shape := ⟨2, ![1, 5]⟩
abbrev S8192x5 : Shape := ⟨2, ![8192, 5]⟩
abbrev S8192x5x1 : Shape := ⟨3, ![8192, 5, 1]⟩
abbrev S16x8192x5x64 : Shape := ⟨4, ![16, 8192, 5, 64]⟩
abbrev S16x8192x64x5 : Shape := ⟨4, ![16, 8192, 64, 5]⟩
abbrev S16x8192x1x5 : Shape := ⟨4, ![16, 8192, 1, 5]⟩
abbrev S16x8192x5 : Shape := ⟨3, ![16, 8192, 5]⟩
abbrev S16x8192 : Shape := ⟨2, ![16, 8192]⟩
abbrev S16x8192x1 : Shape := ⟨3, ![16, 8192, 1]⟩
abbrev S16x8192x63x5 : Shape := ⟨4, ![16, 8192, 63, 5]⟩
abbrev S16x8192x315 : Shape := ⟨3, ![16, 8192, 315]⟩
abbrev S16x8192x316 : Shape := ⟨3, ![16, 8192, 316]⟩
abbrev S1x1x64 : Shape := ⟨3, ![1, 1, 64]⟩
abbrev S16x8192x63 : Shape := ⟨3, ![16, 8192, 63]⟩

abbrev nBuf : Space → Nat
  | .hbm => 62
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S64x316, .f32⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S16x8196x64, .f32⟩
  | .hbm, ⟨8, _⟩ => ⟨S16x8196x1, .f32⟩
  | .hbm, ⟨9, _⟩ => ⟨S16x8196, .f32⟩
  | .hbm, ⟨10, _⟩ => ⟨S16x8196, .f32⟩
  | .hbm, ⟨11, _⟩ => ⟨S16x8196, .f32⟩
  | .hbm, ⟨12, _⟩ => ⟨S_, .i32⟩
  | .hbm, ⟨13, _⟩ => ⟨S1, .i32⟩
  | .hbm, ⟨14, _⟩ => ⟨S16x8196x64, .f32⟩
  | .hbm, ⟨15, _⟩ => ⟨S8192, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S5, .i32⟩
  | .hbm, ⟨21, _⟩ => ⟨S1x5, .i32⟩
  | .hbm, ⟨22, _⟩ => ⟨S8192x5, .i32⟩
  | .hbm, ⟨23, _⟩ => ⟨S8192x5, .i32⟩
  | .hbm, ⟨24, _⟩ => ⟨S8192x5, .i32⟩
  | .hbm, ⟨25, _⟩ => ⟨S_, .i32⟩
  | .hbm, ⟨26, _⟩ => ⟨S8192x5, .i32⟩
  | .hbm, ⟨27, _⟩ => ⟨S8192x5, .i1⟩
  | .hbm, ⟨28, _⟩ => ⟨S_, .i32⟩
  | .hbm, ⟨29, _⟩ => ⟨S8192x5, .i32⟩
  | .hbm, ⟨30, _⟩ => ⟨S8192x5, .i32⟩
  | .hbm, ⟨31, _⟩ => ⟨S8192x5, .i32⟩
  | .hbm, ⟨32, _⟩ => ⟨S8192x5x1, .i32⟩
  | .hbm, ⟨33, _⟩ => ⟨S16x8192x5x64, .f32⟩
  | .hbm, ⟨34, _⟩ => ⟨S16x8192x64x5, .f32⟩
  | .hbm, ⟨35, _⟩ => ⟨S16x8192x1x5, .f32⟩
  | .hbm, ⟨36, _⟩ => ⟨S16x8192x5, .f32⟩
  | .hbm, ⟨37, _⟩ => ⟨S16x8192x5, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S_, .f32⟩
  | .hbm, ⟨42, _⟩ => ⟨S16x8192x1, .f32⟩
  | .hbm, ⟨43, _⟩ => ⟨S16x8192x1, .f32⟩
  | .hbm, ⟨44, _⟩ => ⟨S16x8192x1, .f32⟩
  | .hbm, ⟨45, _⟩ => ⟨S16x8192x63x5, .f32⟩
  | .hbm, ⟨46, _⟩ => ⟨S16x8192x315, .f32⟩
  | .hbm, ⟨47, _⟩ => ⟨S16x8192x316, .f32⟩
  | .hbm, ⟨48, _⟩ => ⟨S16x8192x64, .f32⟩
  | .hbm, ⟨49, _⟩ => ⟨S1x1x64, .f32⟩
  | .hbm, ⟨50, _⟩ => ⟨S16x8192x64, .f32⟩
  | .hbm, ⟨51, _⟩ => ⟨S16x8192x64, .f32⟩
  | .hbm, ⟨52, _⟩ => ⟨S16x8192x63, .f32⟩
  | .hbm, ⟨53, _⟩ => ⟨S16x8192x63, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S_, .f32⟩
  | .hbm, ⟨58, _⟩ => ⟨S16x8192x1, .f32⟩
  | .hbm, ⟨59, _⟩ => ⟨S16x8192x1, .f32⟩
  | .hbm, ⟨60, _⟩ => ⟨S16x8192x1, .f32⟩
  | .hbm, ⟨61, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  pads_S16x8192x64_S16x8196x64_000_220_000 : S16x8192x64.Pads (![0, 2, 0] : Fin 3 → Nat) ![0, 2, 0] ![0, 0, 0] S16x8196x64
  h_S_ : 0 < S_.numel
  slices_S16x8196x64_S16x8196x1_0_0_0 : S16x8196x64.Slices ![0, 0, 0] S16x8196x1
  shapeCasts_S16x8196x1_S16x8196 : S16x8196x1.ShapeCasts S16x8196
  bcast_S_S16x8196 : S_.BroadcastsInDim S16x8196 (![] : Fin 0 → Fin S16x8196.rank)
  bcast_S_S1 : S_.BroadcastsInDim S1 (![] : Fin 0 → Fin S1.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S5_S1x5_1 : S5.BroadcastsInDim S1x5 (![1] : Fin 1 → Fin S1x5.rank)
  bcast_S8192x1_S8192x5_0_1 : S8192x1.BroadcastsInDim S8192x5 (![0, 1] : Fin 2 → Fin S8192x5.rank)
  bcast_S1x5_S8192x5_0_1 : S1x5.BroadcastsInDim S8192x5 (![0, 1] : Fin 2 → Fin S8192x5.rank)
  bcast_S_S8192x5 : S_.BroadcastsInDim S8192x5 (![] : Fin 0 → Fin S8192x5.rank)
  bcast_S8192x5_S8192x5x1_0_1 : S8192x5.BroadcastsInDim S8192x5x1 (![0, 1] : Fin 2 → Fin S8192x5x1.rank)
  transposes_S16x8192x5x64_S16x8192x64x5_0_1_3_2 : S16x8192x5x64.Transposes [0, 1, 3, 2] S16x8192x64x5
  slices_S16x8192x64x5_S16x8192x1x5_0_0_0_0 : S16x8192x64x5.Slices ![0, 0, 0, 0] S16x8192x1x5
  shapeCasts_S16x8192x1x5_S16x8192x5 : S16x8192x1x5.ShapeCasts S16x8192x5
  reducesTo_S16x8192x5_S16x8192_d2 : S16x8192x5.ReducesTo [2] S16x8192
  bcast_S16x8192_S16x8192x1_0_1 : S16x8192.BroadcastsInDim S16x8192x1 (![0, 1] : Fin 2 → Fin S16x8192x1.rank)
  bcast_S_S16x8192x1 : S_.BroadcastsInDim S16x8192x1 (![] : Fin 0 → Fin S16x8192x1.rank)
  slices_S16x8192x64x5_S16x8192x63x5_0_0_1_0 : S16x8192x64x5.Slices ![0, 0, 1, 0] S16x8192x63x5
  shapeCasts_S16x8192x63x5_S16x8192x315 : S16x8192x63x5.ShapeCasts S16x8192x315
  concatenates_S16x8192x1_S16x8192x315_S16x8192x316_d2 : Shape.Concatenates [S16x8192x1, S16x8192x315] S16x8192x316 2
  bcast_S64_S1x1x64_2 : S64.BroadcastsInDim S1x1x64 (![2] : Fin 1 → Fin S1x1x64.rank)
  bcast_S1x1x64_S16x8192x64_0_1_2 : S1x1x64.BroadcastsInDim S16x8192x64 (![0, 1, 2] : Fin 3 → Fin S16x8192x64.rank)
  slices_S16x8192x64_S16x8192x63_0_0_1 : S16x8192x64.Slices ![0, 0, 1] S16x8192x63
  reducesTo_S16x8192x63_S16x8192_d2 : S16x8192x63.ReducesTo [2] S16x8192
  concatenates_S16x8192x1_S16x8192x63_S16x8192x64_d2 : Shape.Concatenates [S16x8192x1, S16x8192x63] S16x8192x64 2
  scatter_S16x8196x64_S1_S16x8196_01_2_2_0_wf : ScatterDims.WF S16x8196x64 S1 S16x8196 [0, 1] [2] [2] 0
  gather_S16x8196x64_S8192x5x1_S16x8192x5x64_03_1_n_n_1_2_16164_wf : GatherDims.WF S16x8196x64 S8192x5x1 S16x8192x5x64 [0, 3] [1] [] [1] [] 2 ![16, 1, 64]
  dot_S16x8192x316_S64x316_S16x8192x64_2_1_01_0_n_n_wf : DotDims.WF S16x8192x316 S64x316 S16x8192x64 [2] [1] [0, 1] [0] [] []

variable [Facts₀]

def scatter_S16x8196x64_S1_S16x8196_01_2_2_0 : ScatterDims S16x8196x64 S1 S16x8196 where
  updateWindowDims := [0, 1]
  insertedWindowDims := [2]
  scatterDimsToOperandDims := [2]
  indexVectorDim := 0
  wf := scatter_S16x8196x64_S1_S16x8196_01_2_2_0_wf
def gather_S16x8196x64_S8192x5x1_S16x8192x5x64_03_1_n_n_1_2_16164 : GatherDims S16x8196x64 S8192x5x1 S16x8192x5x64 where
  offsetDims := [0, 3]
  collapsedSliceDims := [1]
  operandBatchingDims := []
  startIndicesBatchingDims := []
  startIndexMap := [1]
  indexVectorDim := 2
  sliceSizes := ![16, 1, 64]
  wf := gather_S16x8196x64_S8192x5x1_S16x8192x5x64_03_1_n_n_1_2_16164_wf
def dot_S16x8192x316_S64x316_S16x8192x64_2_1_01_0_n_n : DotDims S16x8192x316 S64x316 S16x8192x64 where
  lhsContracting := [2]
  rhsContracting := [1]
  lhsNonContracting := [0, 1]
  rhsNonContracting := [0]
  lhsBatch := []
  rhsBatch := []
  wf := dot_S16x8192x316_S64x316_S16x8192x64_2_1_01_0_n_n_wf

class Facts : Prop extends Facts₀ where

variable [Facts]
-- ==== Proof.KernelArgs.lean ====
/-
  The small operands of the pass as the region finds them, entry by entry.

  Before the pass, the weight matrix W : [64, 316] and the bias b : [64] are re-laid by the program around it:
    * the time weights: column 0 of W as a [1, 64] row — entry (0, o) is W[o, 0];
    * the tap weights: columns 1 to 315 of W viewed [64, 63, 5] and transposed to [5, 63, 64] — entry (k, c, o) is
      W[o, 1 + (5 c + k)] (the change of float format on the way is the identity at the ideal values);
    * the bias as a [1, 64] row — entry (0, o) is b[o].
-/
import proofs.«127380_j15917148799336_1_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Args

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The time weights' array: column 0 of W, viewed [64] and then [1, 64]. -/
theorem V_v2 (c : Dev nD) : (V m c main_v2 : S1x64.Idx → EReal)
    = shapeCast S1x64 (shapeCast S64 (extractStridedSlice S64x1 ![0, 0] (m ((c : Thread nD τ).loc main_arg1)) slices_S64x316_S64x1_0_0) shapeCasts_S64x1_S64) shapeCasts_S64_S1x64 := by
  dsimp only [Gen.V, Gen.hostOps0]; after_results; rfl

/-- The bias's array: b viewed [1, 64]. -/
theorem V_v7 (c : Dev nD) : (V m c main_v7 : S1x64.Idx → EReal)
    = shapeCast S1x64 (m ((c : Thread nD τ).loc main_arg2)) shapeCasts_S64_S1x64 := by
  dsimp only [Gen.V, Gen.hostOps0]; after_results; rfl

/-- The tap weights' array: columns 1 to 315 of W, viewed [64, 63, 5], transposed to [5, 63, 64]. -/
theorem V_v6 (c : Dev nD) : (V m c main_v6 : S5x63x64.Idx → EReal)
    = truncf (F := Ideal) .bf16 (transpose S5x63x64 [2, 1, 0] (shapeCast S64x63x5 (extractStridedSlice S64x315 ![0, 1] (m ((c : Thread nD τ).loc main_arg1)) slices_S64x316_S64x315_0_1) shapeCasts_S64x315_S64x63x5) transposes_S64x63x5_S5x63x64_2_1_0) bitsLt_bf16_f32 := by
  dsimp only [Gen.V, Gen.hostOps0]; after_results; rfl

/-- The time weights: entry (0, o) of the [1, 64] row is W[o, 0]. -/
theorem V_v2_apply (c : Dev nD) (o : Fin 64) :
    (V m c main_v2 : S1x64.Idx → EReal) (ix2 (0 : Fin 1) o) = m ((c : Thread nD τ).loc main_arg1) (ix2 o (0 : Fin 316)) := by
  rw [V_v2]
  refine (shapeCast_apply _ _ (ix2 (0 : Fin 1) o) (ix1 o) ?_).trans ?_
  · rw [Shape.rowMajor_val_two, Shape.rowMajor_val_one]; show o.val = 0 * 64 + o.val; omega
  refine (shapeCast_apply _ _ (ix1 o) (ix2 o (0 : Fin 1)) ?_).trans ?_
  · rw [Shape.rowMajor_val_two, Shape.rowMajor_val_one]; show o.val * 1 + 0 = o.val; omega
  refine extractStridedSlice_apply _ _ _ (ix2 o (0 : Fin 1)) (ix2 o (0 : Fin 316)) ?_
  intro a
  match a with
  | ⟨0, _⟩ => show o.val = 0 + o.val; omega
  | ⟨1, _⟩ => show 0 = 0 + 0; rfl

/-- The bias: entry (0, o) of the [1, 64] row is b[o]. -/
theorem V_v7_apply (c : Dev nD) (o : Fin 64) :
    (V m c main_v7 : S1x64.Idx → EReal) (ix2 (0 : Fin 1) o) = m ((c : Thread nD τ).loc main_arg2) (ix1 o) := by
  rw [V_v7]
  refine shapeCast_apply _ _ (ix2 (0 : Fin 1) o) (ix1 o) ?_
  rw [Shape.rowMajor_val_two, Shape.rowMajor_val_one]; show o.val = 0 * 64 + o.val; omega

/-- The tap weights: entry (k, cc, o) of the [5, 63, 64] array is W[o, 1 + (5 cc + k)]. -/
theorem V_v6_apply (c : Dev nD) (k : Fin 5) (cc : Fin 63) (o : Fin 64) :
    (V m c main_v6 : S5x63x64.Idx → EReal) (ix3 k cc o)
      = m ((c : Thread nD τ).loc main_arg1) (ix2 o (⟨1 + (cc.val * 5 + k.val), by have := k.isLt; have := cc.isLt; omega⟩ : Fin 316)) := by
  have hk := k.isLt
  have hc := cc.isLt
  rw [V_v6]
  refine (truncf_apply (ψ := .bf16) _ bitsLt_bf16_f32 (ix3 k cc o)).trans ?_
  refine (transpose_apply _ _ _ (ix3 k cc o) (ix3 o cc k) ?_).trans ?_
  · intro b
    match b with
    | ⟨0, _⟩ => rfl
    | ⟨1, _⟩ => rfl
    | ⟨2, _⟩ => rfl
  refine (shapeCast_apply _ _ (ix3 o cc k) (ix2 o (⟨cc.val * 5 + k.val, by omega⟩ : Fin 315)) ?_).trans ?_
  · rw [Shape.rowMajor_val_two, Shape.rowMajor_val_three]
    show o.val * 315 + (cc.val * 5 + k.val) = (o.val * 63 + cc.val) * 5 + k.val; omega
  refine extractStridedSlice_apply _ _ _ (ix2 o (⟨cc.val * 5 + k.val, by omega⟩ : Fin 315)) (ix2 o (⟨1 + (cc.val * 5 + k.val), by omega⟩ : Fin 316)) ?_
  intro a
  match a with
  | ⟨0, _⟩ => show o.val = 0 + o.val; omega
  | ⟨1, _⟩ => rfl

end Cert.KernelIdeal.Args

end
-- ==== Proof.Spec.lean ====
/-
  The Lorentz convolution of one batch of rows, as functions of coordinates over the extended reals.

  A batch is 8192 rows of 64 columns; column 0 is the time coordinate, columns 1 to 63 the space coordinates. The rows are
  padded with two zero rows in front and two behind (8196 rows) and the time column is then raised to at least one
  (`xpad`; a padding row's time entry becomes one). Output row `l` sees the five padded rows `l, …, l + 4`:
    * the rescaled time  `tresc = sqrt (Σ_k time(l + k)² − 4)`  (`tsq`, `tresc`);
    * the 316 features: feature 0 is `tresc`, feature `1 + 5 c + k` is space coordinate `c` of padded row `l + k` (`feat`);
    * the linear layer  `ypre o = Σ_f feat f · W o f + b o`;
    * and the output: its space columns are `ypre`'s, its time column is `sqrt (Σ_{j ≥ 1} ypre j² + 1)` (`outOf`, `G`).
  The same value summed in another order — five taps, each a sum over the 63 space columns against its own 63 × 64
  slice of the weights, added one after the other to zero, then the time term, then the bias — is `ypreK` (with `tsqK`,
  the five squares added one after the other to zero). That the two orders agree is a statement about finite sums in a
  commutative monoid and needs no finiteness of the entries.
-/
import Idealize.ShloMosaic.PureOps.Ideal
import Idealize.ShloMosaic.PureOps.Ideal.Laws

noncomputable section

open scoped BigOperators

namespace Cert.Lorentz

open Idealize.ShloMosaic

/-- The float words the two programs spell: 0.0, 1.0 and 4.0. -/
abbrev zero : EReal := Ideal.ofBits .f32 0x00000000#32
abbrev one : EReal := Ideal.ofBits .f32 0x3F800000#32
abbrev four : EReal := Ideal.ofBits .f32 0x40800000#32

/-- The word 0.0 denotes 0. -/
theorem zero_eq : zero = 0 := Ideal.ofBits_zero_f32

/-- The word 1.0 denotes 1. -/
theorem one_eq : one = 1 := by
  simp [Ideal.ofBits, Ideal.ieee, -EReal.coe_mul]; norm_num

/-- The square root of 1.0 is 1.0: the clamp's bound, which one program spells as the word and the other as its root. -/
theorem sqrt_one : Ideal.sqrt one = one := by
  rw [one_eq, ← EReal.coe_one, Ideal.sqrt_coe]
  simp

/-- Row `r` of the zero-padded batch (rows 2 to 8193 are the batch's rows 0 to 8191; the others are zero). -/
def xrow (x : Fin 8192 → Fin 64 → EReal) (r : ℕ) (c : Fin 64) : EReal :=
  if h : 2 ≤ r ∧ r < 8194 then x ⟨r - 2, by omega⟩ c else zero

/-- The padded batch with its time column (column 0) raised to at least one. -/
def xpad (x : Fin 8192 → Fin 64 → EReal) (r : ℕ) (c : Fin 64) : EReal :=
  if c.val = 0 then max (xrow x r c) one else xrow x r c

/-- The sum of the squared time entries of the five padded rows output row `l` sees. -/
def tsq (x : Fin 8192 → Fin 64 → EReal) (l : Fin 8192) : EReal :=
  ∑ k : Fin 5, xpad x (l.val + k.val) 0 * xpad x (l.val + k.val) 0

/-- The rescaled time coordinate of a window whose squared times sum to `s`. -/
def tresc (s : EReal) : EReal := Ideal.sqrt (s - four)

/-- The 316 features of output row `l`: the rescaled time, then space coordinate `c` of padded row `l + k` at `1 + 5 c + k`. -/
def feat (x : Fin 8192 → Fin 64 → EReal) (l : Fin 8192) (f : Fin 316) : EReal :=
  if f.val = 0 then tresc (tsq x l)
  else xpad x (l.val + (f.val - 1) % 5) ⟨1 + (f.val - 1) / 5, by have := f.isLt; omega⟩

/-- The linear layer: output column `o` of row `l` before the time coordinate is rebuilt. -/
def ypre (x : Fin 8192 → Fin 64 → EReal) (W : Fin 64 → Fin 316 → EReal) (b : Fin 64 → EReal) (l : Fin 8192) (o : Fin 64) : EReal :=
  (∑ f : Fin 316, feat x l f * W o f) + b o

/-- A row with its time column rebuilt from its space columns: `sqrt (Σ_{j ≥ 1} y j² + 1)` at column 0, `y` elsewhere. -/
def outOf (y : Fin 64 → EReal) (o : Fin 64) : EReal :=
  if o.val = 0 then Ideal.sqrt ((∑ j : Fin 63, y ⟨1 + j.val, by omega⟩ * y ⟨1 + j.val, by omega⟩) + one) else y o

/-- THE RESULT: entry `(bi, l, o)` as a function of the three argument arrays. -/
def G (x : Fin 16 → Fin 8192 → Fin 64 → EReal) (W : Fin 64 → Fin 316 → EReal) (b : Fin 64 → EReal)
    (bi : Fin 16) (l : Fin 8192) (o : Fin 64) : EReal :=
  outOf (ypre (x bi) W b l) o

/-! ## The same value in the order one pass over a batch computes it -/

/-- The five squared time entries added one after the other to zero. -/
def tsqK (x : Fin 8192 → Fin 64 → EReal) (l : Fin 8192) : EReal :=
  ((((zero + xpad x (l.val + 0) 0 * xpad x (l.val + 0) 0) + xpad x (l.val + 1) 0 * xpad x (l.val + 1) 0)
      + xpad x (l.val + 2) 0 * xpad x (l.val + 2) 0) + xpad x (l.val + 3) 0 * xpad x (l.val + 3) 0)
    + xpad x (l.val + 4) 0 * xpad x (l.val + 4) 0

/-- Tap `k`: the 63 space coordinates of padded row `l + k` against tap `k`'s slice of the weights. -/
def tap (x : Fin 8192 → Fin 64 → EReal) (wk : Fin 5 → Fin 63 → Fin 64 → EReal) (l : Fin 8192) (o : Fin 64) (k : Fin 5) : EReal :=
  ∑ c : Fin 63, xpad x (l.val + k.val) ⟨1 + c.val, by omega⟩ * wk k c o

/-- The linear layer tap by tap: the five taps added one after the other to zero, then the time term, then the bias. -/
def ypreK (x : Fin 8192 → Fin 64 → EReal) (wk : Fin 5 → Fin 63 → Fin 64 → EReal) (w0 bb : Fin 64 → EReal)
    (l : Fin 8192) (o : Fin 64) : EReal :=
  ((((((zero + tap x wk l o 0) + tap x wk l o 1) + tap x wk l o 2) + tap x wk l o 3) + tap x wk l o 4)
      + tresc (tsqK x l) * w0 o) + bb o

/-- Tap `k`'s slice of the weight matrix: space coordinate `c` of tap `k` is feature `1 + (5 c + k)`. -/
def wtap (W : Fin 64 → Fin 316 → EReal) (k : Fin 5) (c : Fin 63) (o : Fin 64) : EReal :=
  W o ⟨1 + (c.val * 5 + k.val), by have := k.isLt; have := c.isLt; omega⟩

end Cert.Lorentz

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KernelPoint.lean ====
/-
  What one pass over a batch leaves in its output block, entry by entry.
-/
import proofs.«127380_j15917148799336_1_alg».proof.Proof.Gen.KernelIdeal.Value
import proofs.«127380_j15917148799336_1_alg».proof.Proof.Spec
import proofs.«127380_j15917148799336_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- Tap `k`'s 63 × 64 weights, from the five one-tap slices of the weight block. -/
def wblk (P1 P2 P3 P4 P5 : Vec Ideal S1x63x64 .bf16) (k : Fin 5) (c : Fin 63) (o : Fin 64) : EReal :=
  match k with
  | ⟨0, _⟩ => P1 (ix3 (0 : Fin 1) c o)
  | ⟨1, _⟩ => P2 (ix3 (0 : Fin 1) c o)
  | ⟨2, _⟩ => P3 (ix3 (0 : Fin 1) c o)
  | ⟨3, _⟩ => P4 (ix3 (0 : Fin 1) c o)
  | ⟨4, _⟩ => P5 (ix3 (0 : Fin 1) c o)

/-- The comparison of a column number below 64 with zero, as a one-bit word. -/
theorem cmpi_eq0 (n : ℕ) (hn : n < 64) :
    IntOp.cmpi .eq (BitVec.ofNat 32 n) 0#32 = if n = 0 then 1#1 else 0#1 := by
  by_cases h : n = 0
  · subst h; rfl
  · rw [if_neg h]
    have hne : BitVec.ofNat 32 n ≠ 0#32 := by
      intro e
      have := congrArg BitVec.toNat e
      simp at this
      omega
    unfold IntOp.cmpi
    show BitVec.ofBool (BitVec.ofNat 32 n == 0#32) = 0#1
    rw [beq_eq_false_iff_ne.mpr hne]
    rfl

/-- The zero-padded batch at a row and a column: two zero rows, the batch's 8192 rows, two zero rows. -/
theorem cat_at (v1 : FVec Ideal S8192x64 .f32) (z : FVec Ideal S2x64 .f32) (hz : ∀ i, z i = Cert.Lorentz.zero)
    (h : Shape.Concatenates [S2x64, S8192x64, S2x64] S8196x64 0) (r : Fin 8196) (c : Fin 64) :
    concatenate S8196x64 0 [⟨S2x64, z⟩, ⟨S8192x64, v1⟩, ⟨S2x64, z⟩] h (ix2 r c)
      = Cert.Lorentz.xrow (fun r' c' => v1 (ix2 r' c')) r.val c := by
  unfold Cert.Lorentz.xrow
  by_cases h1 : r.val < 2
  · rw [dif_neg (by omega)]
    refine (concatenate_apply_piece (t := S8196x64) (0 : Fin 2) [⟨S2x64, z⟩, ⟨S8192x64, v1⟩, ⟨S2x64, z⟩] h (ix2 r c)
      0 (Nat.succ_pos _) S2x64 z rfl rfl 0 rfl (ix2 (⟨r.val, h1⟩ : Fin 2) c) ?_ ?_).trans (hz _)
    · intro b hb
      match b with
      | ⟨0, _⟩ => exact absurd rfl hb
      | ⟨1, _⟩ => rfl
    · show 0 + r.val = r.val
      omega
  · by_cases h2 : r.val < 8194
    · rw [dif_pos ⟨by omega, h2⟩]
      refine concatenate_apply_piece (t := S8196x64) (0 : Fin 2) [⟨S2x64, z⟩, ⟨S8192x64, v1⟩, ⟨S2x64, z⟩] h (ix2 r c)
        1 (by show 1 < 3; omega) S8192x64 v1 rfl rfl 2 rfl (ix2 (⟨r.val - 2, by omega⟩ : Fin 8192) c) ?_ ?_
      · intro b hb
        match b with
        | ⟨0, _⟩ => exact absurd rfl hb
        | ⟨1, _⟩ => rfl
      · show 2 + (r.val - 2) = r.val
        omega
    · rw [dif_neg (by omega)]
      refine (concatenate_apply_piece (t := S8196x64) (0 : Fin 2) [⟨S2x64, z⟩, ⟨S8192x64, v1⟩, ⟨S2x64, z⟩] h (ix2 r c)
        2 (by show 2 < 3; omega) S2x64 z rfl rfl 8194 rfl (ix2 (⟨r.val - 8194, by have := r.isLt; omega⟩ : Fin 2) c) ?_ ?_).trans (hz _)
      · intro b hb
        match b with
        | ⟨0, _⟩ => exact absurd rfl hb
        | ⟨1, _⟩ => rfl
      · show 8194 + (r.val - 8194) = r.val
        omega

/-- An integer comparison of two vectors, read at an index. -/
theorem cmpi_at {s : Shape} {w : ℕ} (p : CmpIPredicate) (x y : IVec s w) (i : s.Idx) :
    cmpi p x y i = IntOp.cmpi p (x i) (y i) := rfl

/-- The padded batch, its time column raised to at least one, at a row and a column. -/
theorem pay2_at (P0 : Vec Ideal S1x8192x64 .f32) (r : Fin 8196) (c : Fin 64) :
    k0_pay2 (F := Ideal) P0 (ix2 r c) = Cert.Lorentz.xpad (fun r' c' => P0 (ix3 (0 : Fin 1) r' c')) r.val c := by
  have hx : (fun (r' : Fin 8192) (c' : Fin 64) => shapeCast S8192x64 P0 shapeCasts_S1x8192x64_S8192x64 (ix2 r' c'))
      = fun r' c' => P0 (ix3 (0 : Fin 1) r' c') := by
    funext r' c'; exact shapeCast_1ab_ab_apply P0 _ r' c'
  have hcat := cat_at (shapeCast S8192x64 P0 shapeCasts_S1x8192x64_S8192x64)
    (broadcast S2x64 (Scalar.ofBits (F := Ideal) .f32 0x00000000#32)) (fun _ => rfl)
    concatenates_S2x64_S8192x64_S2x64_S8196x64_d0 r c
  rw [hx] at hcat
  unfold Cert.Lorentz.xpad
  rw [← hcat]
  unfold k0_pay2
  dsimp only
  rw [select_apply, cmpi_at, iota_single_apply, maximumf_apply]
  show Scalar.select (IntOp.cmpi CmpIPredicate.eq (BitVec.ofNat 32 c.val) 0#32) _ _ = _
  rw [cmpi_eq0 c.val c.isLt]
  by_cases hc : c.val = 0
  · rw [if_pos hc, if_pos hc, select_one]; rfl
  · rw [if_neg hc, if_neg hc, select_zero]

/-- The time column of a window of the padded array that starts `k` rows down, at a row. -/
theorem win_col0 {α : Type} (k : ℕ) (V : S8196x64.Idx → α) (h1 : S8196x64.Slices ![k, 0] S8192x64)
    (h2 : S8192x64.Slices ![0, 0] S8192x1) (l : Fin 8192) (u : Fin 1) (hk : k + l.val < 8196) :
    extractStridedSlice S8192x1 ![0, 0] (extractStridedSlice S8192x64 ![k, 0] V h1) h2 (ix2 l u)
      = V (ix2 (⟨k + l.val, hk⟩ : Fin 8196) (0 : Fin 64)) :=
  (slice2_axis1_apply 0 _ h2 l u (0 : Fin 64) (by have := u.isLt; show 0 = 0 + u.val; omega)).trans
    (slice2_axis0_apply k V h1 l (0 : Fin 64) ⟨k + l.val, hk⟩ rfl)

/-- The 63 space columns of such a window, at a row and a column. -/
theorem win_cols {α : Type} (k : ℕ) (V : S8196x64.Idx → α) (h1 : S8196x64.Slices ![k, 0] S8192x64)
    (h3 : S8192x64.Slices ![0, 1] S8192x63) (l : Fin 8192) (c : Fin 63) (hk : k + l.val < 8196) :
    extractStridedSlice S8192x63 ![0, 1] (extractStridedSlice S8192x64 ![k, 0] V h1) h3 (ix2 l c)
      = V (ix2 (⟨k + l.val, hk⟩ : Fin 8196) (⟨1 + c.val, by omega⟩ : Fin 64)) :=
  (slice2_axis1_apply 1 _ h3 l c (⟨1 + c.val, by omega⟩ : Fin 64) rfl).trans
    (slice2_axis0_apply k V h1 l (⟨1 + c.val, by omega⟩ : Fin 64) ⟨k + l.val, hk⟩ rfl)

/-- One tap's matrix product into zero, at a row and an output column: the 63 space coordinates of padded row
    `l + k` against the tap's weights. -/
theorem tap_at (k : ℕ) (P0 : Vec Ideal S1x8192x64 .f32) (W : FVec Ideal S1x63x64 .bf16)
    (h1 : S8196x64.Slices ![k, 0] S8192x64) (l : Fin 8192) (o : Fin 64) (hk : k ≤ 4) :
    matmul dot_S8192x63_S63x64_S8192x64_1_0_0_1_n_n none
        (truncf .bf16 (extractStridedSlice S8192x63 ![0, 1] (extractStridedSlice S8192x64 ![k, 0] (k0_pay2 (F := Ideal) P0) h1)
          slices_S8192x64_o0_1_S8192x63) bitsLt_bf16_f32)
        (shapeCast S63x64 W shapeCasts_S1x63x64_S63x64) (constant S8192x64 .f32 0x00000000#32) (ix2 l o)
      = ∑ c : Fin 63, Cert.Lorentz.xpad (fun r' c' => P0 (ix3 (0 : Fin 1) r' c')) (l.val + k) ⟨1 + c.val, by omega⟩
          * W (ix3 (0 : Fin 1) c o) := by
  refine (Cert.LibMatmulAt.matmul_zero_at dot_S8192x63_S63x64_S8192x64_1_0_0_1_n_n rfl rfl rfl rfl rfl rfl none _ _ l o).trans ?_
  refine Finset.sum_congr rfl fun c _ => ?_
  rw [truncf_apply, win_cols k _ h1 _ l c (by have := l.isLt; omega), pay2_at, shapeCast_1ab_ab_apply]
  show Cert.Lorentz.xpad _ (k + l.val) _ * _ = _
  rw [Nat.add_comm k l.val]

/-- The time entry of padded row `l + k`, read through the window that starts `k` rows down. -/
theorem time_at (k : ℕ) (P0 : Vec Ideal S1x8192x64 .f32) (h1 : S8196x64.Slices ![k, 0] S8192x64) (l : Fin 8192) (u : Fin 1)
    (hk : k ≤ 4) :
    extractStridedSlice S8192x1 ![0, 0] (extractStridedSlice S8192x64 ![k, 0] (k0_pay2 (F := Ideal) P0) h1)
        slices_S8192x64_o0_0_S8192x1 (ix2 l u)
      = Cert.Lorentz.xpad (fun r' c' => P0 (ix3 (0 : Fin 1) r' c')) (l.val + k) 0 := by
  rw [win_col0 k _ h1 _ l u (by have := l.isLt; omega), pay2_at]
  show Cert.Lorentz.xpad _ (k + l.val) _ = _
  rw [Nat.add_comm k l.val]

/-- The first two taps added to zero, at a row and an output column. -/
theorem pay5_at (P0 : Vec Ideal S1x8192x64 .f32) (W0 W1 : FVec Ideal S1x63x64 .bf16) (l : Fin 8192) (o : Fin 64) :
    k0_pay5 (F := Ideal) P0 W0 W1 (ix2 l o)
      = (Cert.Lorentz.zero
          + ∑ c : Fin 63, Cert.Lorentz.xpad (fun r' c' => P0 (ix3 (0 : Fin 1) r' c')) (l.val + 0) ⟨1 + c.val, by omega⟩
              * W0 (ix3 (0 : Fin 1) c o))
        + ∑ c : Fin 63, Cert.Lorentz.xpad (fun r' c' => P0 (ix3 (0 : Fin 1) r' c')) (l.val + 1) ⟨1 + c.val, by omega⟩
              * W1 (ix3 (0 : Fin 1) c o) := by
  unfold k0_pay5 k0_pay3 k0_pay4
  dsimp only
  rw [addf_apply, addf_apply, broadcast_apply, tap_at 0 P0 W0 _ l o (by omega), tap_at 1 P0 W1 _ l o (by omega)]
  rfl

/-- A column broadcast along the rows' columns reads its row's one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector viewed as a one-column matrix reads its entry. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of the squares of a matrix's columns 1 to 63, at a row. -/
theorem lanesum_at (v74 : FVec Ideal S8192x64 .f32) (h3 : S8192x64.Slices ![0, 1] S8192x63)
    (hred : S8192x63.Reduces [1] S8192) (hφ : FKind.Formats .f32)
    (hacc : (0x00000000#32 : BitVec 32) = FKind.add.neutral .f32 hφ) (l : Fin 8192) :
    multiReduction (F := Ideal) .add [1] S8192
        (mulf (extractStridedSlice S8192x63 ![0, 1] v74 h3) (extractStridedSlice S8192x63 ![0, 1] v74 h3))
        0x00000000#32 hred hφ hacc (ix1 l)
      = ∑ j : Fin 63, v74 (ix2 l ⟨1 + j.val, by omega⟩) * v74 (ix2 l ⟨1 + j.val, by omega⟩) := by
  refine (Ideal.multiReduction_add_single _ _ hred hφ hacc (ix1 l)).trans ?_
  refine Finset.sum_congr (s₂ := (Finset.univ : Finset (Fin 63))) rfl ?_
  intro (j : Fin 63) _
  have e : hred.lift (ix1 l) j = ix2 l j :=
    funext fun a => Fin.ext (by match a with | ⟨0, _⟩ => rfl | ⟨1, _⟩ => rfl)
  rw [e, mulf_apply, slice2_axis1_eq]

/-- The last steps of a pass, at a row and a column: the time column rebuilt from the space columns. -/
theorem tail_at (v74 : FVec Ideal S8192x64 .f32) (h3 : S8192x64.Slices ![0, 1] S8192x63)
    (hred : S8192x63.Reduces [1] S8192) (hφ : FKind.Formats .f32)
    (hacc : (0x00000000#32 : BitVec 32) = FKind.add.neutral .f32 hφ) (hsc : S8192.ShapeCasts S8192x1)
    (hcat : Shape.Concatenates [S8192x1, S8192x63] S8192x64 1) (l : Fin 8192) (o : Fin 64) :
    concatenate S8192x64 1
        [⟨S8192x1, sqrt (addf (shapeCast S8192x1 (multiReduction (F := Ideal) .add [1] S8192
            (mulf (extractStridedSlice S8192x63 ![0, 1] v74 h3) (extractStridedSlice S8192x63 ![0, 1] v74 h3))
            0x00000000#32 hred hφ hacc) hsc) (broadcast S8192x1 (Scalar.ofBits .f32 0x3F800000#32)))⟩,
         ⟨S8192x63, extractStridedSlice S8192x63 ![0, 1] v74 h3⟩] hcat (ix2 l o)
      = Cert.Lorentz.outOf (fun o' => v74 (ix2 l o')) o := by
  unfold Cert.Lorentz.outOf
  by_cases ho : o.val = 0
  · rw [if_pos ho]
    refine (concatenate_pair_apply_left (t := S8192x64) (s₁ := S8192x1) (s₂ := S8192x63) (1 : Fin 2) _ _ hcat (ix2 l o) rfl (ix2 l (0 : Fin 1)) ?_).trans ?_
    · intro b
      match b with
      | ⟨0, _⟩ => rfl
      | ⟨1, _⟩ => exact ho.symm
    · show Ideal.sqrt (shapeCast S8192x1 _ hsc (ix2 l (0 : Fin 1)) + Cert.Lorentz.one) = _
      rw [shapeCast_a_a1_apply, lanesum_at]
  · rw [if_neg ho]
    refine (concatenate_pair_apply_right (t := S8192x64) (s₁ := S8192x1) (s₂ := S8192x63) (1 : Fin 2) _ _ hcat (ix2 l o) rfl rfl
      (ix2 l (⟨o.val - 1, by have := o.isLt; omega⟩ : Fin 63)) ?_ ?_).trans ?_
    · intro b hb
      match b with
      | ⟨0, _⟩ => rfl
      | ⟨1, _⟩ => exact absurd rfl hb
    · show (o.val - 1) + 1 = o.val
      omega
    · rw [slice2_axis1_eq]
      exact congrArg v74 (congrArg (ix2 l) (Fin.ext (by show 1 + (o.val - 1) = o.val; omega)))

/-- A square root of a vector, read at an index. -/
theorem sqrt_at {s : Shape} {φ : FTy} (x : FVec Ideal s φ) (i : s.Idx) : sqrt x i = Ideal.sqrt (x i) := rfl

/-- The block the body stores, at block index `y` = (0, row, column): the row's linear layer, tap by tap, over the
    batch block `P0`, the five weight slices `P1 … P5`, the time weights `P6` and the bias `P7`, its time column rebuilt. -/
theorem E4_eq (P0 : Vec Ideal S1x8192x64 .f32) (P1 P2 P3 P4 P5 : Vec Ideal S1x63x64 .bf16) (P6 P7 : Vec Ideal S1x64 .f32)
    (y : S1x8192x64.Idx) :
    Cert.KernelIdeal.Value.E4 (F := Ideal) P0 P1 P2 P3 P4 P5 P6 P7 y
      = Cert.Lorentz.outOf (Cert.Lorentz.ypreK (fun r c => P0 (ix3 (0 : Fin 1) r c)) (wblk P1 P2 P3 P4 P5)
          (fun o => P6 (ix2 (0 : Fin 1) o)) (fun o => P7 (ix2 (0 : Fin 1) o)) ⟨(y 1).val, (y 1).isLt⟩) ⟨(y 2).val, (y 2).isLt⟩ := by
  -- the block index by its coordinates: (0, row l, column o)
  obtain ⟨y0, l, o, rfl⟩ : ∃ (a : Fin 1) (l : Fin 8192) (o : Fin 64), y = ix3 a l o := ⟨y 0, y 1, y 2, eq_ix3 y⟩
  show Cert.KernelIdeal.Value.E4 (F := Ideal) P0 P1 P2 P3 P4 P5 P6 P7 (ix3 y0 l o)
      = Cert.Lorentz.outOf (Cert.Lorentz.ypreK (fun r c => P0 (ix3 (0 : Fin 1) r c)) (wblk P1 P2 P3 P4 P5)
          (fun o => P6 (ix2 (0 : Fin 1) o)) (fun o => P7 (ix2 (0 : Fin 1) o)) l) o
  have hix : Cert.KernelIdeal.Value.ix4_0 (ix3 y0 l o) = ix2 l o :=
    funext fun a => by match a with | ⟨0, _⟩ => rfl | ⟨1, _⟩ => rfl
  unfold Cert.KernelIdeal.Value.E4
  rw [hix]
  unfold k0_pay10
  -- the last steps rebuild the time column from the row before them …
  refine (tail_at _ _ _ _ _ _ _ l o).trans ?_
  -- … and that row is the linear layer tap by tap, column by column
  refine congrArg (fun f => Cert.Lorentz.outOf f o) (funext fun o' => ?_)
  simp only [addf_apply, mulf_apply, subf_apply, sqrt_at, broadcast_apply]
  rw [pay5_at, tap_at 2 P0 P3 _ l o' (by omega), tap_at 3 P0 P4 _ l o' (by omega), tap_at 4 P0 P5 _ l o' (by omega),
    broadcastTo_a1_ab_apply, broadcastTo_1b_ab_apply, broadcastTo_1b_ab_apply, shapeCast_self, shapeCast_self]
  simp only [addf_apply, mulf_apply, subf_apply, sqrt_at, broadcast_apply]
  rw [time_at 0 P0 _ l (0 : Fin 1) (by omega), time_at 1 P0 _ l (0 : Fin 1) (by omega), time_at 2 P0 _ l (0 : Fin 1) (by omega),
    time_at 3 P0 _ l (0 : Fin 1) (by omega), time_at 4 P0 _ l (0 : Fin 1) (by omega)]
  rfl

end Cert.KernelIdeal.Point

end
-- ==== Proof.SumLaw.lean ====
/-
  The two orders of summation agree.

  Both equations are statements about finite sums in a commutative additive monoid: the extended reals' addition is
  commutative and associative everywhere, so terms may be regrouped and re-indexed; nothing is multiplied out and no
  entry is assumed finite. The 316 features split as feature 0 plus the 315 features `1 + (5 c + k)`, and those 315
  are indexed by the pairs `(c, k)` with `c < 63`, `k < 5`.
-/
import proofs.«127380_j15917148799336_1_alg».proof.Proof.Spec
import Mathlib.Algebra.BigOperators.Fin
import Mathlib.Algebra.BigOperators.Group.Finset.Basic
import Mathlib.Logic.Equiv.Fin.Basic

noncomputable section

open scoped BigOperators

namespace Cert.Lorentz

open Idealize.ShloMosaic

/-- A sum over 315 = 63 · 5 indices, taken as five sums of 63: index `5 c + k` is the pair `(c, k)`. -/
theorem sum_fin315 {M : Type*} [AddCommMonoid M] (h : Fin 315 → M) :
    ∑ i : Fin 315, h i
      = ∑ k : Fin 5, ∑ c : Fin 63, h ⟨c.val * 5 + k.val, by have := k.isLt; have := c.isLt; omega⟩ := by
  -- re-index along the bijection (c, k) ↦ k + 5 c, split the pair sum, and put k outside
  have e := Equiv.sum_comp (finProdFinEquiv (m := 63) (n := 5)) h
  rw [← e, Fintype.sum_prod_type, Finset.sum_comm]
  refine Finset.sum_congr rfl fun k _ => Finset.sum_congr rfl fun c _ => ?_
  congr 1
  apply Fin.ext
  simp [finProdFinEquiv]
  omega

/-- A sum over 316 indices: index 0, then the other 315 as five sums of 63, index `1 + (5 c + k)` being `(c, k)`. -/
theorem sum_fin316 {M : Type*} [AddCommMonoid M] (g : Fin 316 → M) :
    ∑ f : Fin 316, g f
      = g 0 + ∑ k : Fin 5, ∑ c : Fin 63,
          g ⟨1 + (c.val * 5 + k.val), by have := k.isLt; have := c.isLt; omega⟩ := by
  rw [Fin.sum_univ_succ, sum_fin315]
  congr 1

/-- Five squares added one after the other to zero are their sum. -/
theorem tsqK_eq (x : Fin 8192 → Fin 64 → EReal) (l : Fin 8192) : tsqK x l = tsq x l := by
  unfold tsqK tsq
  rw [Fin.sum_univ_five, zero_eq, zero_add]
  rfl

/-- Feature 0 is the rescaled time. -/
theorem feat_zero (x : Fin 8192 → Fin 64 → EReal) (l : Fin 8192) : feat x l 0 = tresc (tsq x l) := by
  unfold feat
  exact if_pos rfl

/-- Feature `1 + (5 c + k)` is space coordinate `c` of padded row `l + k`: `(5 c + k) % 5 = k` and `(5 c + k) / 5 = c`. -/
theorem feat_space (x : Fin 8192 → Fin 64 → EReal) (l : Fin 8192) (c : Fin 63) (k : Fin 5) :
    feat x l ⟨1 + (c.val * 5 + k.val), by have := k.isLt; have := c.isLt; omega⟩
      = xpad x (l.val + k.val) ⟨1 + c.val, by have := c.isLt; omega⟩ := by
  have hk := k.isLt
  have hc := c.isLt
  have h1 : (1 + (c.val * 5 + k.val) - 1) % 5 = k.val := by omega
  have h2 : (1 + (c.val * 5 + k.val) - 1) / 5 = c.val := by omega
  unfold feat
  rw [if_neg (by simp)]
  simp only [h1, h2]

/-- Tap `k` over the weight matrix's own slice is the sum of the 63 feature terms `1 + (5 c + k)`. -/
theorem tap_eq (x : Fin 8192 → Fin 64 → EReal) (W : Fin 64 → Fin 316 → EReal) (l : Fin 8192) (o : Fin 64) (k : Fin 5) :
    tap x (wtap W) l o k
      = ∑ c : Fin 63, feat x l ⟨1 + (c.val * 5 + k.val), by have := k.isLt; have := c.isLt; omega⟩
          * W o ⟨1 + (c.val * 5 + k.val), by have := k.isLt; have := c.isLt; omega⟩ := by
  unfold tap wtap
  refine Finset.sum_congr rfl fun c _ => ?_
  rw [feat_space]

/-- The linear layer tap by tap, over the weight matrix's own slices, is the sum over the 316 features. -/
theorem ypreK_eq (x : Fin 8192 → Fin 64 → EReal) (W : Fin 64 → Fin 316 → EReal) (b : Fin 64 → EReal) (l : Fin 8192) (o : Fin 64) :
    ypreK x (wtap W) (fun o' => W o' 0) b l o = ypre x W b l o := by
  unfold ypreK ypre
  -- both sides become (five taps) and (time term) in the two orders; addition commutes
  rw [tsqK_eq, sum_fin316, Fin.sum_univ_five, feat_zero, tap_eq, tap_eq, tap_eq, tap_eq, tap_eq,
    zero_eq, zero_add]
  exact congrArg (· + b o) (add_comm _ _)

end Cert.Lorentz

end
-- ==== Proof.SpecArr.lean ====
/-
  The result as ONE array: entry `(bi, l, o)` of the [16, 8192, 64] output as a function of the three argument arrays
  x : [16, 8192, 64], W : [64, 316], b : [64], through the coordinate form `Cert.Lorentz.G`.
-/
import proofs.«127380_j15917148799336_1_alg».proof.Proof.Spec
import Idealize.ShloMosaic.Lib.ValueIdx

noncomputable section

namespace Cert.Lorentz

open Idealize.ShloMosaic Idealize.ShloMosaic.ValueIdx

/-- THE RESULT ARRAY of the three argument arrays. -/
def Garr (a0 : (⟨3, ![16, 8192, 64]⟩ : Shape).Idx → EReal) (a1 : (⟨2, ![64, 316]⟩ : Shape).Idx → EReal)
    (a2 : (⟨1, ![64]⟩ : Shape).Idx → EReal) : (⟨3, ![16, 8192, 64]⟩ : Shape).Idx → EReal :=
  fun i => G (fun bi r c => a0 (ix3 bi r c)) (fun o f => a1 (ix2 o f)) (fun o => a2 (ix1 o))
    ⟨(i 0).val, (i 0).isLt⟩ ⟨(i 1).val, (i 1).isLt⟩ ⟨(i 2).val, (i 2).isLt⟩

/-- At an index given by its coordinates. -/
theorem Garr_ix3 (a0 : (⟨3, ![16, 8192, 64]⟩ : Shape).Idx → EReal) (a1 : (⟨2, ![64, 316]⟩ : Shape).Idx → EReal)
    (a2 : (⟨1, ![64]⟩ : Shape).Idx → EReal) (bi : Fin 16) (l : Fin 8192) (o : Fin 64) :
    Garr a0 a1 a2 (ix3 bi l o) = G (fun bi r c => a0 (ix3 bi r c)) (fun o f => a1 (ix2 o f)) (fun o => a2 (ix1 o)) bi l o := rfl

end Cert.Lorentz

end
-- ==== Proof.KernelArray.lean ====
/-
  From the blocks to the array: the pass's output after all sixteen grid points.

  Point `t` of the grid stages batch `t` of the first argument (block (t, 0, 0) of [16, 8192, 64]) and the whole of the
  three small operands, runs the body, and writes its output block back as block (t, 0, 0) of the result. The body's
  stored block, entry by entry, is the row's linear layer tap by tap with the time column rebuilt; over the small
  operands as the region finds them — the time weights W[·, 0], the tap weights W[·, 1 + (5 c + k)], the bias — that is the
  coordinate form `Cert.Lorentz.G` once the sums are put in one order. So each point writes back its block of the
  result array `Cert.Lorentz.Garr` of the three arguments; the sixteen blocks cover the array; hence the array after the
  run is `Garr`.
-/
import proofs.«127380_j15917148799336_1_alg».proof.Proof.Gen.KernelIdeal.Value
import proofs.«127380_j15917148799336_1_alg».proof.Proof.KernelArgs
import proofs.«127380_j15917148799336_1_alg».proof.Proof.KernelPoint
import proofs.«127380_j15917148799336_1_alg».proof.Proof.SumLaw
import proofs.«127380_j15917148799336_1_alg».proof.Proof.SpecArr
import Idealize.ShloMosaic.Lib.ValueIdx
import Idealize.ShloMosaic.Lib.Pipeline.Value

noncomputable section

open scoped BigOperators

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 16 grid points: the batch window and the output window sit at block
    (t, 0, 0); the three small operands' windows never move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 ∧ t.val < 16 :=
  (by decide +kernel : ∀ t : Fin grid0.N, _)

/-- The input blocks at point `t`, at their literal types. -/
abbrev xblk (c : Dev nD) (t : Fin cfg0.N) : Vec Ideal S1x8192x64 .f32 := iblk m c 0 t
abbrev w0blk (c : Dev nD) (t : Fin cfg0.N) : Vec Ideal S1x64 .f32 := iblk m c 1 t
abbrev wkblk (c : Dev nD) (t : Fin cfg0.N) : Vec Ideal S5x63x64 .bf16 := iblk m c 2 t
abbrev bblk (c : Dev nD) (t : Fin cfg0.N) : Vec Ideal S1x64 .f32 := iblk m c 3 t

/-- The batch block at point `t` is batch `t` of the first argument. -/
theorem xblk_at (c : Dev nD) (t : Fin cfg0.N) (ht : t.val < 16) (r : Fin 8192) (cc : Fin 64) :
    xblk m c t (ix3 (0 : Fin 1) r cc) = m ((c : Thread nD τ).loc main_arg0) (ix3 (⟨t.val, ht⟩ : Fin 16) r cc) := by
  obtain ⟨e0, e1, e2, -⟩ := idx_facts t
  show V m c main_arg0 (((cfg0.win 0).blk t).view.emb (ix3 (0 : Fin 1) r cc)) = _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 8192 + 1 * r.val = r.val; omega
  | ⟨2, _⟩ => show win0_0.index t (2 : Fin 3) * 64 + 1 * cc.val = cc.val; omega

/-- The time-weight block is the whole [1, 64] row. -/
theorem w0blk_at (c : Dev nD) (t : Fin cfg0.N) (o : Fin 64) :
    w0blk m c t (ix2 (0 : Fin 1) o) = m ((c : Thread nD τ).loc main_arg1) (ix2 o (0 : Fin 316)) := by
  obtain ⟨-, -, -, e0, e1, -⟩ := idx_facts t
  rw [← Cert.KernelIdeal.Args.V_v2_apply m c o]
  show V m c main_v2 (((cfg0.win 1).blk t).view.emb (ix2 (0 : Fin 1) o)) = _
  congr 1
  funext a
  apply Fin.ext
  match a with
  | ⟨0, _⟩ => show win0_1.index t (0 : Fin 2) * 1 + 1 * 0 = 0; omega
  | ⟨1, _⟩ => show win0_1.index t (1 : Fin 2) * 64 + 1 * o.val = o.val; omega

/-- The bias block is the whole [1, 64] row. -/
theorem bblk_at (c : Dev nD) (t : Fin cfg0.N) (o : Fin 64) :
    bblk m c t (ix2 (0 : Fin 1) o) = m ((c : Thread nD τ).loc main_arg2) (ix1 o) := by
  obtain ⟨-, -, -, -, -, -, -, -, e0, e1, -⟩ := idx_facts t
  rw [← Cert.KernelIdeal.Args.V_v7_apply m c o]
  show V m c main_v7 (((cfg0.win 3).blk t).view.emb (ix2 (0 : Fin 1) o)) = _
  congr 1
  funext a
  apply Fin.ext
  match a with
  | ⟨0, _⟩ => show win0_3.index t (0 : Fin 2) * 1 + 1 * 0 = 0; omega
  | ⟨1, _⟩ => show win0_3.index t (1 : Fin 2) * 64 + 1 * o.val = o.val; omega

/-- The tap-weight block is the whole [5, 63, 64] array. -/
theorem wkblk_at (c : Dev nD) (t : Fin cfg0.N) (k : Fin 5) (cc : Fin 63) (o : Fin 64) :
    wkblk m c t (ix3 k cc o)
      = m ((c : Thread nD τ).loc main_arg1) (ix2 o (⟨1 + (cc.val * 5 + k.val), by have := k.isLt; have := cc.isLt; omega⟩ : Fin 316)) := by
  obtain ⟨-, -, -, -, -, e0, e1, e2, -⟩ := idx_facts t
  rw [← Cert.KernelIdeal.Args.V_v6_apply m c k cc o]
  show V m c main_v6 (((cfg0.win 2).blk t).view.emb (ix3 k cc o)) = _
  congr 1
  funext a
  apply Fin.ext
  match a with
  | ⟨0, _⟩ => show win0_2.index t (0 : Fin 3) * 5 + 1 * k.val = k.val; omega
  | ⟨1, _⟩ => show win0_2.index t (1 : Fin 3) * 63 + 1 * cc.val = cc.val; omega
  | ⟨2, _⟩ => show win0_2.index t (2 : Fin 3) * 64 + 1 * o.val = o.val; omega

/-- A load of one tap's [1, 63, 64] slice of a [5, 63, 64] block reads the block at that tap. -/
theorem ld_tap (X : Vec Ideal S5x63x64 .bf16) (k : Fin 5) (inb : ∀ a, (![k.val, 0, 0] : Fin 3 → Nat) a + S1x63x64.size a ≤ S5x63x64.size a)
    (cc : Fin 63) (o : Fin 64) :
    View.ld X (Rect.unit (s := S5x63x64) ![k.val, 0, 0] S1x63x64.size inb) (ix3 (0 : Fin 1) cc o) = X (ix3 k cc o) := by
  show X ((Rect.unit (s := S5x63x64) ![k.val, 0, 0] S1x63x64.size inb).emb (ix3 (0 : Fin 1) cc o)) = _
  congr 1
  funext a
  apply Fin.ext
  match a with
  | ⟨0, _⟩ => show k.val + 1 * 0 = k.val; omega
  | ⟨1, _⟩ => show 0 + 1 * cc.val = cc.val; omega
  | ⟨2, _⟩ => show 0 + 1 * o.val = o.val; omega

/-- WHAT POINT `t` WRITES BACK is block `t` of the result array of the three arguments. -/
theorem flushed_eq (c : Dev nD) (t : Fin cfg0.N) :
    (dats m 0 c).flushed 4 t = ((cfg0.win 4).blk t).view.read (Elt Ideal)
      (Cert.Lorentz.Garr (m ((c : Thread nD τ).loc main_arg0)) (m ((c : Thread nD τ).loc main_arg1)) (m ((c : Thread nD τ).loc main_arg2))) := by
  obtain ⟨-, -, -, -, -, -, -, -, -, -, e0, e1, e2, ht⟩ := idx_facts t
  rw [Value.flushed4]
  funext y
  have hy0 : (y 0).val < 1 := (y 0).isLt
  have hy1 : (y 1).val < 8192 := (y 1).isLt
  have hy2 : (y 2).val < 64 := (y 2).isLt
  show out0_4 (xblk m c t) (w0blk m c t) (wkblk m c t) (bblk m c t) y
    = Cert.Lorentz.Garr (m ((c : Thread nD τ).loc main_arg0)) (m ((c : Thread nD τ).loc main_arg1)) (m ((c : Thread nD τ).loc main_arg2))
        (((cfg0.win 4).blk t).view.emb y)
  have hi : ((cfg0.win 4).blk t).view.emb y = ix3 (⟨t.val, ht⟩ : Fin 16) (⟨(y 1).val, hy1⟩ : Fin 8192) (⟨(y 2).val, hy2⟩ : Fin 64) := by
    funext a
    apply Fin.ext
    match a with
    | ⟨0, _⟩ => show win0_4.index t (0 : Fin 3) * 1 + 1 * (y 0).val = t.val; omega
    | ⟨1, _⟩ => show win0_4.index t (1 : Fin 3) * 8192 + 1 * (y 1).val = (y 1).val; omega
    | ⟨2, _⟩ => show win0_4.index t (2 : Fin 3) * 64 + 1 * (y 2).val = (y 2).val; omega
  rw [hi, Cert.Lorentz.Garr_ix3]
  unfold out0_4
  rw [Value.canon4_eq, Cert.KernelIdeal.Point.E4_eq]
  have hx : (fun (r : Fin 8192) (cc : Fin 64) => View.ld (xblk m c t) r0_0 (ix3 (0 : Fin 1) r cc))
      = fun r cc => m ((c : Thread nD τ).loc main_arg0) (ix3 (⟨t.val, ht⟩ : Fin 16) r cc) := by
    funext r cc
    rw [View.ld_unit_zero (S := S1x8192x64) hz3]
    exact xblk_at m c t ht r cc
  have hw0 : (fun (o : Fin 64) => View.ld (w0blk m c t) r0_6 (ix2 (0 : Fin 1) o))
      = fun o => m ((c : Thread nD τ).loc main_arg1) (ix2 o (0 : Fin 316)) := by
    funext o
    rw [View.ld_unit_zero (S := S1x64) hz2]
    exact w0blk_at m c t o
  have hb : (fun (o : Fin 64) => View.ld (bblk m c t) r0_6 (ix2 (0 : Fin 1) o))
      = fun o => m ((c : Thread nD τ).loc main_arg2) (ix1 o) := by
    funext o
    rw [View.ld_unit_zero (S := S1x64) hz2]
    exact bblk_at m c t o
  have hw : Cert.KernelIdeal.Point.wblk (View.ld (wkblk m c t) r0_1) (View.ld (wkblk m c t) r0_2) (View.ld (wkblk m c t) r0_3)
        (View.ld (wkblk m c t) r0_4) (View.ld (wkblk m c t) r0_5)
      = Cert.Lorentz.wtap (fun o f => m ((c : Thread nD τ).loc main_arg1) (ix2 o f)) := by
    funext k cc o
    match k with
    | ⟨0, _⟩ => exact (ld_tap (wkblk m c t) 0 _ cc o).trans (wkblk_at m c t 0 cc o)
    | ⟨1, _⟩ => exact (ld_tap (wkblk m c t) 1 _ cc o).trans (wkblk_at m c t 1 cc o)
    | ⟨2, _⟩ => exact (ld_tap (wkblk m c t) 2 _ cc o).trans (wkblk_at m c t 2 cc o)
    | ⟨3, _⟩ => exact (ld_tap (wkblk m c t) 3 _ cc o).trans (wkblk_at m c t 3 cc o)
    | ⟨4, _⟩ => exact (ld_tap (wkblk m c t) 4 _ cc o).trans (wkblk_at m c t 4 cc o)
  show Cert.Lorentz.outOf (Cert.Lorentz.ypreK (fun r cc => View.ld (xblk m c t) r0_0 (ix3 (0 : Fin 1) r cc))
      (Cert.KernelIdeal.Point.wblk (View.ld (wkblk m c t) r0_1) (View.ld (wkblk m c t) r0_2) (View.ld (wkblk m c t) r0_3)
        (View.ld (wkblk m c t) r0_4) (View.ld (wkblk m c t) r0_5))
      (fun o => View.ld (w0blk m c t) r0_6 (ix2 (0 : Fin 1) o)) (fun o => View.ld (bblk m c t) r0_6 (ix2 (0 : Fin 1) o))
      ⟨(y 1).val, hy1⟩) ⟨(y 2).val, hy2⟩ = _
  rw [hx, hw0, hb, hw]
  unfold Cert.Lorentz.G
  congr 1
  funext o
  exact Cert.Lorentz.ypreK_eq _ _ _ _ o

/-- An index of the array is in point `t`'s block iff each coordinate is in the block's range on its axis. -/
theorem mem_blk (t : Fin cfg0.N) (i : S16x8192x64.Idx) :
    i ∈ ((cfg0.win 4).blk t).view.set ↔ ∀ a : Fin 3, win0_4.index t a * S1x8192x64.size a ≤ (i a).val
      ∧ (i a).val < win0_4.index t a * S1x8192x64.size a + S1x8192x64.size a := by
  show i ∈ ((View.whole main_v8).slice (win0_4.rect t)).set ↔ _
  rw [View.set_slice_whole, Rect.mem_set_unit]
  exact Iff.rfl

/-- The grid has sixteen points. -/
theorem N_eq : cfg0.N = 16 := by decide

/-- The sixteen blocks cover the array: entry `(bi, l, o)` is in point `bi`'s block. -/
theorem cover (i : S16x8192x64.Idx) :
    ∃ t : Fin cfg0.N, (cfg0.win 4).flush t = true ∧ i ∈ ((cfg0.win 4).blk t).view.set := by
  have hi0 : (i 0).val < 16 := (i 0).isLt
  have hi1 : (i 1).val < 8192 := (i 1).isLt
  have hi2 : (i 2).val < 64 := (i 2).isLt
  have hN : (i 0).val < cfg0.N := by rw [N_eq]; exact hi0
  refine ⟨⟨(i 0).val, hN⟩, flush0_4 _, ?_⟩
  obtain ⟨-, -, -, -, -, -, -, -, -, -, e0', e1, e2, -⟩ := idx_facts ⟨(i 0).val, hN⟩
  have e0 : win0_4.index ⟨(i 0).val, hN⟩ (0 : Fin 3) = (i 0).val := e0'
  rw [mem_blk]
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]; omega
  | ⟨1, _⟩ =>
    show win0_4.index ⟨(i 0).val, _⟩ (1 : Fin 3) * 8192 ≤ (i 1).val ∧ (i 1).val < win0_4.index ⟨(i 0).val, _⟩ (1 : Fin 3) * 8192 + 8192
    rw [e1]; omega
  | ⟨2, _⟩ =>
    show win0_4.index ⟨(i 0).val, _⟩ (2 : Fin 3) * 64 ≤ (i 2).val ∧ (i 2).val < win0_4.index ⟨(i 0).val, _⟩ (2 : Fin 3) * 64 + 64
    rw [e2]; omega

/-- THE OUTPUT ARRAY after the run is the result array of the three arguments. -/
theorem final (c : Dev nD) : (dats m 0 c).arrAt 4 cfg0.N
    = Cert.Lorentz.Garr (m ((c : Thread nD τ).loc main_arg0)) (m ((c : Thread nD τ).loc main_arg1)) (m ((c : Thread nD τ).loc main_arg2)) :=
  (dats m 0 c).arrAt_eq_of_cover 4 _ (fun t _ => flushed_eq m c t) cover

/-- The run re-posted: the output array at its function of the arguments, the arguments unchanged. -/
theorem run : θ_run defs (onTc (τ := τ) (main (F := Ideal))) ⟨m, fun _ => 0, ρ⟩ fun r => ∀ c : Dev nD,
      r.2.mem ((c : Thread nD τ).loc main_v8)
        = Cert.Lorentz.Garr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Arr

end
-- ==== Proof.LibScatterSet.lean ====
/-
  A scatter whose body returns the update, read at an index.

  `stablehlo.scatter` with the body `fun _ b => b` runs over the update indices in row-major order, each one
  overwriting the result's element at its result index (when that index is inside the operand). Read at one element
  `i` of the result this is: the update's element `upd j` when `j` is the only update index whose result index is `i`
  ("hit"), and the operand's element `x i` when no update index lands on `i` ("miss"). Both are shown first for the
  left fold of such overwriting steps over ANY list of positions, by induction on the list with the accumulator
  general, and then read off for the scatter.
-/
import Idealize.ShloMosaic.PureOps.ShapeOps

namespace Cert.LibScatterSet

open Idealize.ShloMosaic

/-! ## The fold of overwriting steps over a list -/

section Fold
variable {ι κ α : Type} [DecidableEq κ]

/-- One overwriting step: position `n` replaces the element at `g n` by `v n` when `g n` is an index, and changes
    nothing when it is none. -/
def setStep (g : ι → Option κ) (v : ι → α) (r : κ → α) (n : ι) : κ → α :=
  match g n with
  | some i => fun i' => if i' = i then v n else r i'
  | none => r

/-- A step whose target is not `i` leaves the element at `i` as it was. -/
theorem setStep_of_ne (g : ι → Option κ) (v : ι → α) (r : κ → α) (n : ι) (i : κ) (h : g n ≠ some i) :
    setStep g v r n i = r i := by
  unfold setStep
  cases hk : g n with
  | none => rfl
  | some k =>
    have hik : i ≠ k := fun e => h (e ▸ hk)
    exact if_neg hik

/-- A step whose target is `i` puts its value there. -/
theorem setStep_of_eq (g : ι → Option κ) (v : ι → α) (r : κ → α) (n : ι) (i : κ) (h : g n = some i) :
    setStep g v r n i = v n := by
  unfold setStep
  rw [h]
  exact if_pos rfl

/-- MISS, for a list: when no position of the list targets `i`, the fold leaves the element at `i` as it started. -/
theorem foldl_setStep_miss (g : ι → Option κ) (v : ι → α) (L : List ι) (x : κ → α) (i : κ)
    (h : ∀ n ∈ L, g n ≠ some i) : L.foldl (setStep g v) x i = x i := by
  induction L generalizing x with
  | nil => rfl
  | cons m L ih =>
    rw [List.foldl_cons, ih _ (fun n hn => h n (List.mem_cons_of_mem _ hn)),
      setStep_of_ne g v x m i (h m List.mem_cons_self)]

/-- HIT, for a list: when position `n` of the list targets `i` and is the only one that does, the fold ends with
    `n`'s value at `i`, whatever came before. (A position met before `n` does not target `i`, or is `n` itself; the
    positions after the last occurrence of `n` miss `i`.) -/
theorem foldl_setStep_hit (g : ι → Option κ) (v : ι → α) (L : List ι) (x : κ → α) (i : κ) (n : ι) (hn : n ∈ L)
    (hg : g n = some i) (huniq : ∀ m ∈ L, g m = some i → m = n) : L.foldl (setStep g v) x i = v n := by
  induction L generalizing x with
  | nil => exact absurd hn List.not_mem_nil
  | cons m L ih =>
    rw [List.foldl_cons]
    by_cases hL : n ∈ L
    · exact ih _ hL (fun m' hm' => huniq m' (List.mem_cons_of_mem _ hm'))
    · have hnm : n = m := by
        rcases List.mem_cons.1 hn with h | h
        · exact h
        · exact absurd h hL
      subst hnm
      rw [foldl_setStep_miss g v L _ i (fun m' hm' hgm' => hL (huniq m' (List.mem_cons_of_mem _ hm') hgm' ▸ hm')),
        setStep_of_eq g v x n i hg]

end Fold

/-! ## The scatter that sets -/

section Scatter
variable {s si u : Shape} {α : Type} {w : Nat}

/-- The scatter whose body returns the update is the fold of overwriting steps over the update positions in
    row-major order. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  split <;> rename_i h <;> simp only [h]

/-- MISS: an element of the operand that no update index lands on is kept. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_set_eq_foldl]
  exact foldl_setStep_miss _ _ _ x i (fun n _ => h _)

/-- HIT: an element of the operand that exactly one update index `j` lands on becomes the update's element at `j`. -/
theorem scatter_set_hit (d : ScatterDims s si u) (x : s.Idx → α) (idx : IVec si w) (upd : u.Idx → α) (i : s.Idx)
    (j : u.Idx) (hj : d.resultIdx? j idx = some i) (huniq : ∀ j' : u.Idx, d.resultIdx? j' idx = some i → j' = j) :
    Host.scatter d (fun _ b => b) x idx upd i = upd j := by
  rw [scatter_set_eq_foldl]
  have hsymm : u.rowMajor.symm (u.rowMajor j) = j := u.rowMajor.symm_apply_apply j
  rw [foldl_setStep_hit _ _ _ x i (u.rowMajor j) (List.mem_finRange _) (by rw [hsymm]; exact hj)
    (fun m _ hm => by rw [← huniq _ hm]; exact (u.rowMajor.apply_symm_apply m).symm)]
  rw [hsymm]

/-- HIT under injectivity: when distinct update indices never land on one element, an element some update index `j`
    lands on becomes the update's element at `j`. -/
theorem scatter_set_hit_of_inj (d : ScatterDims s si u) (x : s.Idx → α) (idx : IVec si w) (upd : u.Idx → α)
    (hinj : ∀ (j j' : u.Idx) (i : s.Idx), d.resultIdx? j idx = some i → d.resultIdx? j' idx = some i → j = j')
    (i : s.Idx) (j : u.Idx) (hj : d.resultIdx? j idx = some i) :
    Host.scatter d (fun _ b => b) x idx upd i = upd j :=
  scatter_set_hit d x idx upd i j hj (fun j' hj' => hinj j' j i hj' hj)

end Scatter

end Cert.LibScatterSet
-- ==== Proof.RefIndexing.lean ====
/-
  The reference's two data-dependent reads: the scatter that overwrites column 0, and the gather of five consecutive rows.

  The scatter has ONE start index, the word 0, on the operand's last axis, and a window that is the whole update array
  `[16, 8196]` laid on the operand's axes 0 and 1: update index `(bi, r)` lands at the operand's `(bi, r, 0)`, always in
  range. That map is injective and reaches exactly the elements of column 0, so the general reading of a scatter that
  sets (one update index lands there: its value; none does: the operand's) gives the result column by column.

  The gather collapses the operand's axis 1, which the start index names, and keeps axes 0 and 2 whole as offset axes:
  result index `(bi, l, k, c)` reads the operand at `(bi, clamp (idx (l, k, 0)), c)`, the clamp being `min · (8196 - 1)`
  of the start index read as a signed integer, negative values going to 0.
-/
import proofs.«127380_j15917148799336_1_alg».proof.ReferenceIdeal
import proofs.«127380_j15917148799336_1_alg».proof.Proof.Gen.ReferenceIdeal
import proofs.«127380_j15917148799336_1_alg».proof.Proof.LibScatterSet
import Idealize.ShloMosaic.Lib.ValueIdx

noncomputable section

namespace Cert.ReferenceIdeal.Indexing

open Cert.ReferenceIdeal Cert.ReferenceIdeal.Gen Idealize.ShloMosaic Idealize.ShloMosaic.ValueIdx

variable {α : Type}

/-! ## The scatter's dimension numbers, read at an update index -/

/-- The scatter's dimension numbers, under a short name. -/
abbrev sd := scatter_S16x8196x64_S1_S16x8196_01_2_2_0

/-- The scatter indices have one element: every component of every start index is read at it. -/
theorem sd_siIdx (j : S16x8196.Idx) (q : Fin sd.scatterDimsToOperandDims.length) : sd.siIdx j q = ix1 (0 : Fin 1) := by
  funext b
  refine Fin.ext ?_
  match b with
  | ⟨0, _⟩ =>
    have hq := q.isLt
    have h1 : sd.scatterDimsToOperandDims.length = 1 := rfl
    show q.val = 0
    omega

/-- Every window starts at 0 on every operand axis: axes 0 and 1 are not named by the start index map, and on axis 2
    the start index is the word 0. -/
theorem sd_start (idx : IVec S1 32) (hidx : idx (ix1 (0 : Fin 1)) = 0#32) (j : S16x8196.Idx) (a : Fin 3) :
    sd.start j idx a = 0 := by
  unfold ScatterDims.start
  split
  · rw [sd_siIdx, hidx]; rfl
  · rfl

/-- On operand axis 0 the window coordinate is the update's coordinate 0. -/
theorem sd_window0 (j : S16x8196.Idx) : sd.window j 0 = (j 0).val := by
  unfold ScatterDims.window
  rw [dif_pos (by decide)]
  rfl

/-- On operand axis 1 the window coordinate is the update's coordinate 1. -/
theorem sd_window1 (j : S16x8196.Idx) : sd.window j 1 = (j 1).val := by
  unfold ScatterDims.window
  rw [dif_pos (by decide)]
  rfl

/-- Operand axis 2 is the inserted one: the window coordinate there is 0. -/
theorem sd_window2 (j : S16x8196.Idx) : sd.window j 2 = 0 := by
  unfold ScatterDims.window
  rw [dif_neg (by decide)]

/-- Update index `(bi, r)` lands at the operand's `(bi, r, 0)`, which is inside the operand. -/
theorem sd_resultIdx (idx : IVec S1 32) (hidx : idx (ix1 (0 : Fin 1)) = 0#32) (bi : Fin 16) (r : Fin 8196) :
    sd.resultIdx? (ix2 bi r) idx = some (ix3 bi r (0 : Fin 64)) := by
  have hs := sd_start idx hidx (ix2 bi r)
  have hw0 := sd_window0 (ix2 bi r)
  have hw1 := sd_window1 (ix2 bi r)
  have hw2 := sd_window2 (ix2 bi r)
  have hb := bi.isLt
  have hr := r.isLt
  have h : ∀ a, 0 ≤ sd.start (ix2 bi r) idx a + sd.window (ix2 bi r) a
      ∧ sd.start (ix2 bi r) idx a + sd.window (ix2 bi r) a < S16x8196x64.size a := by
    intro a
    rw [hs a]
    match a with
    | ⟨0, _⟩ =>
      rw [show sd.window (ix2 bi r) ⟨0, _⟩ = _ from hw0]
      show 0 ≤ (0 : Int) + (bi.val : Int) ∧ (0 : Int) + (bi.val : Int) < ((16 : Nat) : Int)
      omega
    | ⟨1, _⟩ =>
      rw [show sd.window (ix2 bi r) ⟨1, _⟩ = _ from hw1]
      show 0 ≤ (0 : Int) + (r.val : Int) ∧ (0 : Int) + (r.val : Int) < ((8196 : Nat) : Int)
      omega
    | ⟨2, _⟩ =>
      rw [show sd.window (ix2 bi r) ⟨2, _⟩ = _ from hw2]
      show 0 ≤ (0 : Int) + ((0 : Nat) : Int) ∧ (0 : Int) + ((0 : Nat) : Int) < ((64 : Nat) : Int)
      omega
  unfold ScatterDims.resultIdx?
  rw [dif_pos h]
  congr 1
  funext a
  refine Fin.ext ?_
  show (sd.start (ix2 bi r) idx a + sd.window (ix2 bi r) a).toNat = (ix3 bi r (0 : Fin 64) a).val
  rw [hs a]
  match a with
  | ⟨0, _⟩ =>
    rw [show sd.window (ix2 bi r) ⟨0, _⟩ = _ from hw0]
    show ((0 : Int) + (bi.val : Int)).toNat = bi.val
    omega
  | ⟨1, _⟩ =>
    rw [show sd.window (ix2 bi r) ⟨1, _⟩ = _ from hw1]
    show ((0 : Int) + (r.val : Int)).toNat = r.val
    omega
  | ⟨2, _⟩ =>
    rw [show sd.window (ix2 bi r) ⟨2, _⟩ = _ from hw2]
    rfl

/-- The scatter with the one start index 0 on the last axis, its body returning the update: column 0 of the operand is
    replaced by the update array, every other column kept. -/
theorem scatter_col0 (X : S16x8196x64.Idx → α) (idx : IVec S1 32) (hidx : idx (ix1 (0 : Fin 1)) = 0#32)
    (U : S16x8196.Idx → α) (bi : Fin 16) (r : Fin 8196) (c : Fin 64) :
    Host.scatter scatter_S16x8196x64_S1_S16x8196_01_2_2_0 (fun _ b => b) X idx U (ix3 bi r c)
      = if c.val = 0 then U (ix2 bi r) else X (ix3 bi r c) := by
  by_cases hc : c.val = 0
  · -- column 0: update index (bi, r) lands here, and it is the only one, its two coordinates being the element's
    rw [if_pos hc]
    obtain rfl : c = (0 : Fin 64) := Fin.ext hc
    refine Cert.LibScatterSet.scatter_set_hit _ X idx U _ (ix2 bi r) (sd_resultIdx idx hidx bi r) ?_
    intro j' hj'
    obtain ⟨a, b, rfl⟩ : ∃ a b, j' = ix2 a b := ⟨j' 0, j' 1, eq_ix2 j'⟩
    rw [sd_resultIdx idx hidx a b] at hj'
    have e := Option.some.inj hj'
    have e0 : a = bi := congrFun e 0
    have e1 : b = r := congrFun e 1
    rw [e0, e1]
  · -- another column: every update index lands in column 0, so none lands here
    rw [if_neg hc]
    refine Cert.LibScatterSet.scatter_set_miss _ X idx U _ ?_
    intro j hj
    obtain ⟨a, b, rfl⟩ : ∃ a b, j = ix2 a b := ⟨j 0, j 1, eq_ix2 j⟩
    rw [sd_resultIdx idx hidx a b] at hj
    have e2 : (0 : Fin 64) = c := congrFun (Option.some.inj hj) 2
    exact hc (by rw [← e2]; rfl)

/-! ## The gather's dimension numbers, read at a result index -/

/-- The gather's dimension numbers, under a short name. -/
abbrev gd := gather_S16x8196x64_S8192x5x1_S16x8192x5x64_03_1_n_n_1_2_16164

/-- No operand axis is a batching axis: the batching coordinate is 0 everywhere. -/
theorem gd_batch (j : S16x8192x5x64.Idx) (a : Fin 3) : gd.batchCoord j a = 0 :=
  GatherDims.batchCoord_eq_zero _ _ _ List.not_mem_nil

/-- Result index `(bi, l, k, c)` reads its one start index component at `(l, k, 0)`: the result's batch axes 1 and 2
    are the start indices' axes 0 and 1, and the index vector's axis 2 has the one coordinate 0. -/
theorem gd_siIdx (bi : Fin 16) (l : Fin 8192) (k : Fin 5) (c : Fin 64) (q : Fin gd.startIndexMap.length) :
    gd.siIdx (ix4 bi l k c) q = ix3 l k (0 : Fin 1) := by
  funext b
  refine Fin.ext ?_
  match b with
  | ⟨0, _⟩ => rfl
  | ⟨1, _⟩ => rfl
  | ⟨2, _⟩ =>
    have hq := q.isLt
    have h1 : gd.startIndexMap.length = 1 := rfl
    show q.val = 0
    omega

/-- Operand axis 0 is not named by the start index map: the slice starts at 0 there. -/
theorem gd_start0 (idx : IVec S8192x5x1 32) (j : S16x8192x5x64.Idx) : gd.start j idx 0 = 0 := by
  unfold GatherDims.start
  rw [dif_neg (by decide)]

/-- Operand axis 2 is not named by the start index map: the slice starts at 0 there. -/
theorem gd_start2 (idx : IVec S8192x5x1 32) (j : S16x8192x5x64.Idx) : gd.start j idx 2 = 0 := by
  unfold GatherDims.start
  rw [dif_neg (by decide)]

/-- On operand axis 1 the slice of size 1 starts at the start index, read signed and clamped to `8196 - 1`. -/
theorem gd_start1 (idx : IVec S8192x5x1 32) (bi : Fin 16) (l : Fin 8192) (k : Fin 5) (c : Fin 64) :
    gd.start (ix4 bi l k c) idx 1 = min (idx (ix3 l k (0 : Fin 1))).toInt.toNat 8195 := by
  unfold GatherDims.start
  rw [dif_pos (by decide), gd_siIdx]
  rfl

/-- Operand axis 0 is the first kept axis: its offset coordinate is the result's coordinate on offset axis 0. -/
theorem gd_off0 (j : S16x8192x5x64.Idx) : gd.offCoord j 0 = (j 0).val := by
  unfold GatherDims.offCoord
  rw [dif_pos (by decide)]
  rfl

/-- Operand axis 1 is collapsed: no offset coordinate. -/
theorem gd_off1 (j : S16x8192x5x64.Idx) : gd.offCoord j 1 = 0 := by
  unfold GatherDims.offCoord
  rw [dif_neg (by decide)]

/-- Operand axis 2 is the second kept axis: its offset coordinate is the result's coordinate on offset axis 3. -/
theorem gd_off2 (j : S16x8192x5x64.Idx) : gd.offCoord j 2 = (j 3).val := by
  unfold GatherDims.offCoord
  rw [dif_pos (by decide)]
  rfl

/-- The gather of rows along axis 1: result entry `(bi, l, k, c)` is the operand at row `idx (l, k, 0)`, read signed
    and clamped into the operand's 8196 rows. -/
theorem gather_rows (X : S16x8196x64.Idx → α) (idx : IVec S8192x5x1 32) (bi : Fin 16) (l : Fin 8192) (k : Fin 5) (c : Fin 64) :
    Host.gather gather_S16x8196x64_S8192x5x1_S16x8192x5x64_03_1_n_n_1_2_16164 X idx (ix4 bi l k c)
      = X (ix3 bi ⟨min (idx (ix3 l k (0 : Fin 1))).toInt.toNat 8195, by omega⟩ c) := by
  unfold Host.gather
  congr 1
  funext a
  refine Fin.ext ?_
  show gd.start (ix4 bi l k c) idx a + gd.batchCoord (ix4 bi l k c) a + gd.offCoord (ix4 bi l k c) a = _
  rw [gd_batch]
  match a with
  | ⟨0, _⟩ =>
    rw [show gd.start (ix4 bi l k c) idx ⟨0, _⟩ = _ from gd_start0 idx _,
      show gd.offCoord (ix4 bi l k c) ⟨0, _⟩ = _ from gd_off0 _]
    show 0 + 0 + bi.val = bi.val
    omega
  | ⟨1, _⟩ =>
    rw [show gd.start (ix4 bi l k c) idx ⟨1, _⟩ = _ from gd_start1 idx bi l k c,
      show gd.offCoord (ix4 bi l k c) ⟨1, _⟩ = _ from gd_off1 _]
    rfl
  | ⟨2, _⟩ =>
    rw [show gd.start (ix4 bi l k c) idx ⟨2, _⟩ = _ from gd_start2 idx _,
      show gd.offCoord (ix4 bi l k c) ⟨2, _⟩ = _ from gd_off2 _]
    show 0 + 0 + c.val = c.val
    omega

end Cert.ReferenceIdeal.Indexing

end
-- ==== Proof.RefValue.lean ====
/-
  The reference program's result, entry by entry.

  The reference pads each batch with two zero rows in front and behind, raises the time column (column 0) of the padded
  array to at least the root of 1.0 — which is 1.0 — by scattering the clamped column back over column 0, and gathers,
  for every output row `l`, the five padded rows `l, …, l + 4` (the index words `l · 1 + k` are small and never negative,
  so neither the wrap-around of negative indices nor the gather's clamp moves them). From the window it takes the
  rescaled time `sqrt (Σ_k time² − 4)` and the 63 × 5 space entries, laid out as 316 features; a dot product with the
  weight matrix and the bias give the linear layer; the time column is rebuilt from the space columns. Read at an index,
  operation by operation, that is `Cert.Lorentz.G` of the three arguments — the sums taken in the reference's own order.
-/
import proofs.«127380_j15917148799336_1_alg».proof.Proof.RefRead
import proofs.«127380_j15917148799336_1_alg».proof.Proof.SpecArr
import proofs.«127380_j15917148799336_1_alg».proof.Proof.RefIndexing
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate

variable (x0 : S16x8192x64.Idx → EReal)

/-- One batch of the first argument, as rows and columns. -/
abbrev rows (bi : Fin 16) : Fin 8192 → Fin 64 → EReal := fun r c => x0 (ix3 bi r c)

/-- The padding value — the integer 0 converted — is the word 0.0's value. -/
theorem padval : val_main_call0_v0 (F := Ideal) ix0 = Cert.Lorentz.zero := by
  rw [Cert.Lorentz.zero_eq]
  show (((0#32 : BitVec 32).toInt : ℝ) : EReal) = 0
  simp

/-- The padded array: rows 2 to 8193 of a batch are its rows 0 to 8191, the two rows before and the two after are zero. -/
theorem v1_at (bi : Fin 16) (r : Fin 8196) (c : Fin 64) :
    val_main_v1 (F := Ideal) x0 (ix3 bi r c) = Cert.Lorentz.xrow (rows x0 bi) r.val c := by
  have hr := r.isLt
  unfold Cert.Lorentz.xrow val_main_v1
  by_cases h : 2 ≤ r.val ∧ r.val < 8194
  · rw [dif_pos h]
    refine pad_apply_of_inside _ _ _ _ _ _ _ (ix3 bi r c) (ix3 bi (⟨r.val - 2, by omega⟩ : Fin 8192) c) ?_
    intro a
    match a with
    | ⟨0, _⟩ => show bi.val = 0 + bi.val * (0 + 1); omega
    | ⟨1, _⟩ => show r.val = 2 + (r.val - 2) * (0 + 1); omega
    | ⟨2, _⟩ => show c.val = 0 + c.val * (0 + 1); omega
  · rw [dif_neg h]
    refine (pad_apply_of_not_inside _ _ _ _ _ _ _ (ix3 bi r c) (1 : Fin 3) ?_).trans ?_
    · show ¬(2 ≤ r.val ∧ (r.val - 2) % (0 + 1) = 0 ∧ (r.val - 2) / (0 + 1) < 8192)
      omega
    · rw [show (Shape.Idx.first h_S_ : S_.Idx) = ix0 from eq_ix0 _]
      exact padval

/-- The clamp's bound: the root of the word 1.0, broadcast, is 1.0. -/
theorem v4_at (i : S16x8196.Idx) : val_main_v4 (F := Ideal) i = Cert.Lorentz.one := by
  rw [val_main_v4_apply]
  show Ideal.sqrt (Ideal.ofBits .f32 0x3F800000#32) = _
  exact Cert.Lorentz.sqrt_one

/-- Column 0 of the padded array. -/
theorem v3_at (bi : Fin 16) (r : Fin 8196) :
    val_main_v3 (F := Ideal) x0 (ix2 bi r) = Cert.Lorentz.xrow (rows x0 bi) r.val 0 := by
  have hr := r.isLt
  have hb := bi.isLt
  rw [val_main_v3_apply, val_main_v2_apply, ← v1_at x0 bi r 0]
  congr 1
  funext a
  apply Fin.ext
  match a with
  | ⟨0, _⟩ => show (bi.val * 8196 + r.val) / 8196 = bi.val; omega
  | ⟨1, _⟩ => show (bi.val * 8196 + r.val) / 1 % 8196 = r.val; omega
  | ⟨2, _⟩ => rfl

/-- The padded array with its time column raised to at least one: the scatter puts the clamped column 0 back. -/
theorem v7_at (bi : Fin 16) (r : Fin 8196) (c : Fin 64) :
    val_main_v7 (F := Ideal) x0 (ix3 bi r c) = Cert.Lorentz.xpad (rows x0 bi) r.val c := by
  unfold val_main_v7 Cert.Lorentz.xpad
  rw [Cert.ReferenceIdeal.Indexing.scatter_col0 _ _ (by rw [val_main_v6_apply]; rfl)]
  by_cases hc : c.val = 0
  · rw [if_pos hc, if_pos hc, val_main_v5_apply, v3_at, v4_at]
    have : c = 0 := Fin.ext hc
    subst this
    rfl
  · rw [if_neg hc, if_neg hc, v1_at]

/-! ## The gather: five consecutive rows -/

/-- The row index word of window entry `(l, k)`: `l · 1 + k`. -/
theorem v16_at (l : Fin 8192) (k : Fin 5) : val_main_v16 (F := Ideal) (ix2 l k) = BitVec.ofNat 32 (l.val + k.val) := by
  rw [val_main_v16_apply, val_main_v14_apply, val_main_v15_apply, val_main_v11_apply, val_main_v9_apply, val_main_v10_apply,
    val_main_v13_apply]
  show IntOp.addi (IntOp.muli (BitVec.ofNat 32 l.val) 1#32) (BitVec.ofNat 32 k.val) = _
  unfold IntOp.addi IntOp.muli
  rw [BitVec.mul_one, BitVec.ofNat_add]

/-- It is never negative, so the wrap-around of negative indices leaves it as it is. -/
theorem v21_at (l : Fin 8192) (k : Fin 5) : val_main_v21 (F := Ideal) (ix2 l k) = BitVec.ofNat 32 (l.val + k.val) := by
  have hl := l.isLt
  have hk := k.isLt
  rw [val_main_v21_apply, val_main_v18_apply, val_main_v17_apply, v16_at]
  have h0 : IntOp.cmpi .slt (BitVec.ofNat 32 (l.val + k.val)) (val_main_c_2 (F := Ideal) (idx_main_v17 (ix2 l k))) = 0#1 := by
    apply eq_zero_of_ne_one
    rw [show val_main_c_2 (F := Ideal) (idx_main_v17 (ix2 l k)) = BitVec.ofNat 32 0 from rfl]
    unfold IntOp.cmpi
    rw [slt_ofNat_iff _ _ (by omega) (by omega)]
    omega
  rw [h0, select_zero]

/-- Window entry `(l, k)` of batch `bi` is padded, clamped row `l + k`. -/
theorem v23_at (bi : Fin 16) (l : Fin 8192) (k : Fin 5) (c : Fin 64) :
    val_main_v23 (F := Ideal) x0 (ix4 bi l k c) = Cert.Lorentz.xpad (rows x0 bi) (l.val + k.val) c := by
  have hl := l.isLt
  have hk := k.isLt
  unfold val_main_v23
  refine (Cert.ReferenceIdeal.Indexing.gather_rows _ _ bi l k c).trans ?_
  rw [v7_at]
  show Cert.Lorentz.xpad (rows x0 bi) (min (val_main_v22 (F := Ideal) (ix3 l k (0 : Fin 1))).toInt.toNat 8195) c = _
  rw [val_main_v22_apply,
    show idx_main_v22 (ix3 l k (0 : Fin 1)) = ix2 l k from funext fun a => Fin.ext (by match a with | ⟨0, _⟩ => rfl | ⟨1, _⟩ => rfl),
    v21_at, toInt_ofNat_small _ (by omega)]
  congr 1
  simp
  omega

/-- The same with the window axis last. -/
theorem v24_at (bi : Fin 16) (l : Fin 8192) (c : Fin 64) (k : Fin 5) :
    val_main_v24 (F := Ideal) x0 (ix4 bi l c k) = Cert.Lorentz.xpad (rows x0 bi) (l.val + k.val) c := by
  rw [val_main_v24_apply, ← v23_at x0 bi l k c]
  congr 1
  funext a
  apply Fin.ext
  match a with
  | ⟨0, _⟩ => rfl
  | ⟨1, _⟩ => rfl
  | ⟨2, _⟩ => rfl
  | ⟨3, _⟩ => rfl

/-! ## The rescaled time -/

/-- The time entries of the window. -/
theorem v26_at (bi : Fin 16) (l : Fin 8192) (k : Fin 5) :
    val_main_v26 (F := Ideal) x0 (ix3 bi l k) = Cert.Lorentz.xpad (rows x0 bi) (l.val + k.val) 0 := by
  have hb := bi.isLt
  have hl := l.isLt
  have hk := k.isLt
  rw [val_main_v26_apply, val_main_v25_apply, ← v24_at x0 bi l 0 k]
  congr 1
  funext a
  apply Fin.ext
  match a with
  | ⟨0, _⟩ => show ((bi.val * 8192 + l.val) * 5 + k.val) / 40960 = bi.val; omega
  | ⟨1, _⟩ => show ((bi.val * 8192 + l.val) * 5 + k.val) / 5 % 8192 = l.val; omega
  | ⟨2, _⟩ => rfl
  | ⟨3, _⟩ => show ((bi.val * 8192 + l.val) * 5 + k.val) % 5 = k.val; omega

/-- Their squares, summed from the word 0.0. -/
theorem v28_at (bi : Fin 16) (l : Fin 8192) :
    val_main_v28 (F := Ideal) x0 (ix2 bi l) = Cert.Lorentz.tsq (rows x0 bi) l := by
  rw [val_main_v28_apply]
  show Cert.Lorentz.zero + _ = _
  rw [Cert.Lorentz.zero_eq, zero_add]
  unfold Cert.Lorentz.tsq
  refine Finset.sum_congr rfl fun k _ => ?_
  rw [val_main_v27_apply,
    show idx_main_v28 (ix2 bi l) k = ix3 bi l k from funext fun a => Fin.ext (by match a with | ⟨0, _⟩ => rfl | ⟨1, _⟩ => rfl | ⟨2, _⟩ => rfl),
    v26_at]
  rfl

/-- The rescaled time coordinate of output row `l`. -/
theorem v32_at (bi : Fin 16) (l : Fin 8192) :
    val_main_v32 (F := Ideal) x0 (ix3 bi l (0 : Fin 1)) = Cert.Lorentz.tresc (Cert.Lorentz.tsq (rows x0 bi) l) := by
  rw [val_main_v32_apply, val_main_v31_apply, val_main_v29_apply, val_main_v30_apply,
    show idx_main_v29 (ix3 bi l (0 : Fin 1)) = ix2 bi l from funext fun a => Fin.ext (by match a with | ⟨0, _⟩ => rfl | ⟨1, _⟩ => rfl),
    v28_at]
  rfl

/-! ## The features and the linear layer -/

variable (x1 : S64x316.Idx → EReal) (x2 : S64.Idx → EReal)

/-- The weight matrix and the bias as functions of coordinates. -/
abbrev wmat : Fin 64 → Fin 316 → EReal := fun o f => x1 (ix2 o f)
abbrev bias : Fin 64 → EReal := fun o => x2 (ix1 o)

/-- The 316 features of output row `l`: the rescaled time in front of the 63 × 5 space entries of the window, space
    coordinate `c` of row `l + k` at position `1 + (5 c + k)`. -/
theorem v35_at (bi : Fin 16) (l : Fin 8192) (f : Fin 316) :
    val_main_v35 (F := Ideal) x0 (ix3 bi l f) = Cert.Lorentz.feat (rows x0 bi) l f := by
  have hf := f.isLt
  have hb := bi.isLt
  have hl := l.isLt
  unfold val_main_v35 Cert.Lorentz.feat
  by_cases h0 : f.val = 0
  · rw [if_pos h0]
    refine (concatenate_pair_apply_left (t := S16x8192x316) (s₁ := S16x8192x1) (s₂ := S16x8192x315) (2 : Fin 3) _ _ concatenates_S16x8192x1_S16x8192x315_S16x8192x316_d2 (ix3 bi l f) rfl
      (ix3 bi l (0 : Fin 1)) ?_).trans (v32_at x0 bi l)
    intro b
    match b with
    | ⟨0, _⟩ => rfl
    | ⟨1, _⟩ => rfl
    | ⟨2, _⟩ => show 0 = f.val; omega
  · rw [if_neg h0]
    refine (concatenate_pair_apply_right (t := S16x8192x316) (s₁ := S16x8192x1) (s₂ := S16x8192x315) (2 : Fin 3) _ _ concatenates_S16x8192x1_S16x8192x315_S16x8192x316_d2 (ix3 bi l f) rfl rfl
      (ix3 bi l (⟨f.val - 1, by omega⟩ : Fin 315)) ?_ ?_).trans ?_
    · intro b hb'
      match b with
      | ⟨0, _⟩ => rfl
      | ⟨1, _⟩ => rfl
      | ⟨2, _⟩ => exact absurd (Fin.ext rfl) hb'
    · show (f.val - 1) + 1 = f.val; omega
    · refine Eq.trans ?_ (v24_at x0 bi l ⟨1 + (f.val - 1) / 5, by omega⟩ ⟨(f.val - 1) % 5, by omega⟩)
      rw [val_main_v34_apply, val_main_v33_apply]
      congr 1
      funext a
      apply Fin.ext
      match a with
      | ⟨0, _⟩ => show ((bi.val * 8192 + l.val) * 315 + (f.val - 1)) / 2580480 = bi.val; omega
      | ⟨1, _⟩ => show ((bi.val * 8192 + l.val) * 315 + (f.val - 1)) / 315 % 8192 = l.val; omega
      | ⟨2, _⟩ => show 1 + ((bi.val * 8192 + l.val) * 315 + (f.val - 1)) / 5 % 63 = 1 + (f.val - 1) / 5; omega
      | ⟨3, _⟩ => show ((bi.val * 8192 + l.val) * 315 + (f.val - 1)) % 5 = (f.val - 1) % 5; omega

/-- The linear layer: the features against row `o` of the weights, plus the bias. -/
theorem v39_at (bi : Fin 16) (l : Fin 8192) (o : Fin 64) :
    val_main_v39 (F := Ideal) x0 x1 x2 (ix3 bi l o) = Cert.Lorentz.ypre (rows x0 bi) (wmat x1) (bias x2) l o := by
  rw [val_main_v39_apply, val_main_v36_apply, val_main_v38_apply, val_main_v37_apply]
  unfold Cert.Lorentz.ypre
  show (∑ k : Fin 316, val_main_v35 (F := Ideal) x0 (lidx_main_v36 (ix3 bi l o) k) * x1 (ridx_main_v36 (ix3 bi l o) k))
      + x2 (idx_main_v37 (idx_main_v38 (ix3 bi l o))) = _
  have hs : ∀ f : Fin 316, val_main_v35 (F := Ideal) x0 (lidx_main_v36 (ix3 bi l o) f) * x1 (ridx_main_v36 (ix3 bi l o) f)
      = Cert.Lorentz.feat (rows x0 bi) l f * wmat x1 o f := fun f => by
    rw [show lidx_main_v36 (ix3 bi l o) f = ix3 bi l f from
        funext fun a => Fin.ext (by match a with | ⟨0, _⟩ => rfl | ⟨1, _⟩ => rfl | ⟨2, _⟩ => rfl),
      show ridx_main_v36 (ix3 bi l o) f = ix2 o f from
        funext fun a => Fin.ext (by match a with | ⟨0, _⟩ => rfl | ⟨1, _⟩ => rfl),
      v35_at]
  have hbias : x2 (idx_main_v37 (idx_main_v38 (ix3 bi l o))) = bias x2 o :=
    congrArg x2 (funext fun a => Fin.ext (by match a with | ⟨0, _⟩ => rfl))
  rw [hbias, Finset.sum_congr rfl fun f _ => hs f]

/-- Its space columns. -/
theorem v40_at (bi : Fin 16) (l : Fin 8192) (j : Fin 63) :
    val_main_v40 (F := Ideal) x0 x1 x2 (ix3 bi l j)
      = Cert.Lorentz.ypre (rows x0 bi) (wmat x1) (bias x2) l ⟨1 + j.val, by omega⟩ := by
  rw [val_main_v40_apply, ← v39_at x0 x1 x2 bi l ⟨1 + j.val, by omega⟩]
  congr 1
  funext a
  apply Fin.ext
  match a with
  | ⟨0, _⟩ => rfl
  | ⟨1, _⟩ => rfl
  | ⟨2, _⟩ => rfl

/-- THE REFERENCE'S RESULT, entry by entry: the row's time column rebuilt in front of its space columns. -/
theorem v47_at (bi : Fin 16) (l : Fin 8192) (o : Fin 64) :
    val_main_v47 (F := Ideal) x0 x1 x2 (ix3 bi l o)
      = Cert.Lorentz.G (fun bi' r c => x0 (ix3 bi' r c)) (wmat x1) (bias x2) bi l o := by
  have ho := o.isLt
  unfold val_main_v47 Cert.Lorentz.G Cert.Lorentz.outOf
  by_cases h0 : o.val = 0
  · rw [if_pos h0]
    refine (concatenate_pair_apply_left (t := S16x8192x64) (s₁ := S16x8192x1) (s₂ := S16x8192x63) (2 : Fin 3) _ _ concatenates_S16x8192x1_S16x8192x63_S16x8192x64_d2 (ix3 bi l o) rfl
      (ix3 bi l (0 : Fin 1)) ?_).trans ?_
    · intro b
      match b with
      | ⟨0, _⟩ => rfl
      | ⟨1, _⟩ => rfl
      | ⟨2, _⟩ => show 0 = o.val; omega
    · rw [val_main_v46_apply, val_main_v45_apply, val_main_v43_apply, val_main_v44_apply, val_main_v42_apply]
      show Ideal.sqrt ((Cert.Lorentz.zero + ∑ k : Fin 63, val_main_v41 (F := Ideal) x0 x1 x2
          (idx_main_v42 (idx_main_v43 (ix3 bi l (0 : Fin 1))) k)) + Cert.Lorentz.one) = _
      rw [Cert.Lorentz.zero_eq, zero_add]
      congr 2
      refine Finset.sum_congr rfl fun j _ => ?_
      rw [val_main_v41_apply,
        show idx_main_v42 (idx_main_v43 (ix3 bi l (0 : Fin 1))) j = ix3 bi l j from
          funext fun a => Fin.ext (by match a with | ⟨0, _⟩ => rfl | ⟨1, _⟩ => rfl | ⟨2, _⟩ => rfl),
        v40_at]
      rfl
  · rw [if_neg h0]
    refine (concatenate_pair_apply_right (t := S16x8192x64) (s₁ := S16x8192x1) (s₂ := S16x8192x63) (2 : Fin 3) _ _ concatenates_S16x8192x1_S16x8192x63_S16x8192x64_d2 (ix3 bi l o) rfl rfl
      (ix3 bi l (⟨o.val - 1, by omega⟩ : Fin 63)) ?_ ?_).trans ?_
    · intro b hb'
      match b with
      | ⟨0, _⟩ => rfl
      | ⟨1, _⟩ => rfl
      | ⟨2, _⟩ => exact absurd (Fin.ext rfl) hb'
    · show (o.val - 1) + 1 = o.val; omega
    · rw [v40_at]
      congr 1
      apply Fin.ext
      show 1 + (o.val - 1) = o.val
      omega

/-- THE REFERENCE'S RESULT is the result array of its three arguments. -/
theorem result_eq : val_main_v47 (F := Ideal) x0 x1 x2 = Cert.Lorentz.Garr x0 x1 x2 := by
  funext i
  obtain ⟨bi, l, o, rfl⟩ : ∃ (bi : Fin 16) (l : Fin 8192) (o : Fin 64), i = ix3 bi l o := ⟨i 0, i 1, i 2, eq_ix3 i⟩
  rw [Cert.Lorentz.Garr_ix3]
  exact v47_at x0 x1 x2 bi l o

end Cert.ReferenceIdeal.RefValue

end
-- ==== Proof.lean ====
/-
  The certificate of the Lorentz convolution: a Pallas pass over sixteen batches against its jnp reference, equal over
  the extended reals.

  Each batch is 8192 rows of 64 columns, a time coordinate and 63 space coordinates. Both programs pad the batch with
  two zero rows at each end, raise the padded time column to at least one, and for every output row look at five
  consecutive padded rows: the rescaled time `sqrt (Σ time² − 4)` and the 5 × 63 space entries feed a linear layer with
  a 64 × 316 weight matrix and a bias, and the output's time column is rebuilt as `sqrt (Σ space² + 1)`.
  The reference lays the window out as 316 features and takes one dot product; the pass takes five 63-term products,
  one per tap, against slices of the weights re-laid beforehand, adds them one after the other, then the time term and
  the bias. At the ideal values these are the same finite sum in two orders (Proof/SumLaw.lean): the extended reals'
  addition is commutative and associative, nothing is multiplied out, and so the inputs' finiteness is never used.
    * `Cert.Lorentz.G` / `Garr` (Proof/Spec.lean, Proof/SpecArr.lean) state the result once, as a function of the arguments;
    * Proof/KernelPoint.lean reads the block the body stores at one index, Proof/KernelArgs.lean the re-laid weights,
      Proof/KernelArray.lean puts the sixteen blocks together: the pass's output array is `Garr`;
    * Proof/RefIndexing.lean (over the general Proof/LibScatterSet.lean) reads the reference's scatter and gather,
      Proof/RefValue.lean the whole reference operation by operation: its result is `Garr` too.
  The three frames are the generated ones (the reference's is its run with the result dropped); the idealization rewrote
  nothing, so `preserves` is `True`.
-/
import proofs.«127380_j15917148799336_1_alg».proof.Defs
import proofs.«127380_j15917148799336_1_alg».proof.Proof.Gen.Kernel
import proofs.«127380_j15917148799336_1_alg».proof.Proof.Gen.Kernel.Skeleton
import proofs.«127380_j15917148799336_1_alg».proof.Proof.Gen.Kernel.Launch
import proofs.«127380_j15917148799336_1_alg».proof.Proof.Gen.Kernel.Points
import proofs.«127380_j15917148799336_1_alg».proof.Proof.Gen.Kernel.Frame
import proofs.«127380_j15917148799336_1_alg».proof.Proof.Gen.KernelIdeal
import proofs.«127380_j15917148799336_1_alg».proof.Proof.Gen.KernelIdeal.Skeleton
import proofs.«127380_j15917148799336_1_alg».proof.Proof.Gen.KernelIdeal.Launch
import proofs.«127380_j15917148799336_1_alg».proof.Proof.Gen.KernelIdeal.Points
import proofs.«127380_j15917148799336_1_alg».proof.Proof.Gen.KernelIdeal.Frame
import proofs.«127380_j15917148799336_1_alg».proof.Proof.Gen.KernelIdeal.Value
import proofs.«127380_j15917148799336_1_alg».proof.Proof.Gen.ReferenceIdeal
import proofs.«127380_j15917148799336_1_alg».proof.Proof.Gen.Pre_finite_inputs
import proofs.«127380_j15917148799336_1_alg».proof.Proof.KernelArray
import proofs.«127380_j15917148799336_1_alg».proof.Proof.RefValue
import Idealize.ShloMosaic.Adequacy
import Idealize.ShloMosaic.Init

noncomputable section

namespace Cert.Proof

open Idealize.ShloMosaic Idealize.ShloMosaic.TcCoe Idealize.SL.Sem

/-- The pass as printed runs and leaves its arguments as they were. -/
theorem frame_kernel : Cert.frame_Kernel := fun m ρ _ => Cert.Kernel.Gen.frame m ρ

/-- So does the pass read at the ideal values. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the three arguments both programs end with the result array `Garr` of those arguments:
    the pass by its sixteen blocks, the reference operation by operation. -/
theorem algebraic : Cert.algebraic_KernelIdeal_ReferenceIdeal := by
  intro m ρ m' ρ' _ hagree
  refine ⟨fun c => Cert.Lorentz.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
